-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S64x2048 : Shape := ⟨2, ![64, 2048]⟩
abbrev S2048x64 : Shape := ⟨2, ![2048, 64]⟩
abbrev S2048x1 : Shape := ⟨2, ![2048, 1]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S2048x64 : S_.BroadcastsInDim S2048x64 (![] : Fin 0 → Fin S2048x64.rank)
  reducesTo_S2048x64_S_d0_1 : S2048x64.ReducesTo [0, 1] S_
  bcast_S_S2048x1 : S_.BroadcastsInDim S2048x1 (![] : Fin 0 → Fin S2048x1.rank)
  reducesTo_S2048x1_S_d0_1 : S2048x1.ReducesTo [0, 1] S_

variable [Facts]

def fn_part1 {F : FTy → Type} [FloatOps F] (main_v13 : IVec S_ 1) (main_v16 : IVec S2048x1 1) : IVec S_ 1 :=
  let main_c_5 : IVec S_ 1 := constantI S_ 1 1#1
  let main_v17 : IVec S_ 1 := (fun x v => Host.reduce IntOp.andi x v reducesTo_S2048x1_S_d0_1 h_S_) main_v16 main_c_5
  let main_v18 : IVec S_ 1 := andi main_v13 main_v17
  main_v18

def fn {F : FTy → Type} [FloatOps F] (main_arg0 : FVec F S4x4096x2048 .f32) (main_arg1 : FVec F S64x2048 .f32) (main_arg2 : FVec F S2048x64 .f32) (main_arg3 : FVec F S2048x1 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S2048x64 .f32 := Host.absf main_arg2
  let main_cst_2 : FVec F S_ .f32 := constant S_ .f32 0x7F800000#32
  let main_v10 : FVec F S2048x64 .f32 := broadcastInDim S2048x64 ![] bcast_S_S2048x64 main_cst_2
  let main_v11 : IVec S2048x64 1 := cmpf .olt main_v9 main_v10
  let main_c_3 : IVec S_ 1 := constantI S_ 1 1#1
  let main_v12 : IVec S_ 1 := (fun x v => Host.reduce IntOp.andi x v reducesTo_S2048x64_S_d0_1 h_S_) main_v11 main_c_3
  let main_v13 : IVec S_ 1 := andi main_v8 main_v12
  let main_v14 : FVec F S2048x1 .f32 := Host.absf main_arg3
  let main_cst_4 : FVec F S_ .f32 := constant S_ .f32 0x7F800000#32
  let main_v15 : FVec F S2048x1 .f32 := broadcastInDim S2048x1 ![] bcast_S_S2048x1 main_cst_4
  let main_v16 : IVec S2048x1 1 := cmpf .olt main_v14 main_v15
  fn_part1 (F := F) main_v13 main_v16
-- ==== Kernel.lean ====
abbrev S4x4096x2048 : Shape := ⟨3, ![4, 4096, 2048]⟩
abbrev S64x2048 : Shape := ⟨2, ![64, 2048]⟩
abbrev S2048x64 : Shape := ⟨2, ![2048, 64]⟩
abbrev S2048x1 : Shape := ⟨2, ![2048, 1]⟩
abbrev S16384x2048 : Shape := ⟨2, ![16384, 2048]⟩
abbrev S1x2048 : Shape := ⟨2, ![1, 2048]⟩
abbrev S1024x1024 : Shape := ⟨2, ![1024, 1024]⟩
abbrev S1024x2048 : Shape := ⟨2, ![1024, 2048]⟩
abbrev S1x1024 : Shape := ⟨2, ![1, 1024]⟩
abbrev S1024 : Shape := ⟨1, ![1024]⟩
abbrev S1024x1 : Shape := ⟨2, ![1024, 1]⟩
abbrev S1024x64 : Shape := ⟨2, ![1024, 64]⟩

abbrev nBuf : Space → Nat
  | .hbm => 10
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S2048x64, .f32⟩
  | .hbm, ⟨3, _⟩ => ⟨S2048x1, .f32⟩
  | .hbm, ⟨4, _⟩ => ⟨S16384x2048, .f32⟩
  | .hbm, ⟨5, _⟩ => ⟨S2048x64, .f32⟩
  | .hbm, ⟨6, _⟩ => ⟨S64x2048, .f32⟩
  | .hbm, ⟨7, _⟩ => ⟨S1x2048, .f32⟩
  | .hbm, ⟨8, _⟩ => ⟨S16384x2048, .f32⟩
  | .hbm, ⟨9, _⟩ => ⟨S4x4096x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x2048, .f32⟩
  | .local _ .vmem, ⟨5, _⟩ => ⟨S2048x64, .f32⟩
  | .local _ .vmem, ⟨6, _⟩ => ⟨S64x2048, .f32⟩
  | .local _ .vmem, ⟨7, _⟩ => ⟨S1024x2048, .f32⟩
  | .local _ .vmem, ⟨8, _⟩ => ⟨S1024x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x4096x2048_S16384x2048 : S4x4096x2048.ShapeCasts S16384x2048
  transposes_S64x2048_S2048x64_1_0 : S64x2048.Transposes [1, 0] S2048x64
  transposes_S2048x64_S64x2048_1_0 : S2048x64.Transposes [1, 0] S64x2048
  shapeCasts_S2048x1_S1x2048 : S2048x1.ShapeCasts S1x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  slices_S1x2048_o0_0_S1x1024 : S1x2048.Slices ![0, 0] S1x1024
  broadcasts_S1x1024_S1024x1024 : S1x1024.Broadcasts S1024x1024
  reduces_S1024x1024_S1024 : S1024x1024.Reduces [1] S1024
  shapeCasts_S1024_S1024x1 : S1024.ShapeCasts S1024x1
  slices_S1x2048_o0_1024_S1x1024 : S1x2048.Slices ![0, 1024] S1x1024
  inb_S2048x64_S1024x64_0_0 : ∀ a, (![0, 0] : Fin 2 → Nat) a + S1024x64.size a ≤ S2048x64.size a
  h_S1024x64 : 0 < S1024x64.numel
  shapeCasts_S1024x64_S1024x64 : S1024x64.ShapeCasts S1024x64
  inb_S2048x64_S1024x64_1024_0 : ∀ a, (![1024, 0] : Fin 2 → Nat) a + S1024x64.size a ≤ S2048x64.size a
  broadcasts_S1024x1_S1024x64 : S1024x1.Broadcasts S1024x64
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S1024x2048_S1024x2048_0_0 : ∀ a, (![0, 0] : Fin 2 → Nat) a + S1024x2048.size a ≤ S1024x2048.size a
  h_S1024x2048 : 0 < S1024x2048.numel
  shapeCasts_S16384x2048_S4x4096x2048 : S16384x2048.ShapeCasts S4x4096x2048
  dot_S1024x1024_S1024x64_S1024x64_1_0_0_1_n_n_wf : DotDims.WF S1024x1024 S1024x64 S1024x64 [1] [0] [0] [1] [] []
  dot_S1024x64_S64x2048_S1024x2048_1_0_0_1_n_n_wf : DotDims.WF S1024x64 S64x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x2048.size a
  hwx0_0 : ∀ i : grid0.Coords, EltTy.bits .f32 = 32 ∨ (Rect.block (s := S16384x2048) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x2048.size a
  hwx0_1 : ∀ i : grid0.Coords, EltTy.bits .f32 = 32 ∨ (Rect.block (s := S16384x2048) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S2048x64.size a
  hwx0_3 : ∀ i : grid0.Coords, EltTy.bits .f32 = 32 ∨ (Rect.block (s := S2048x64) S2048x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x2048.size a ≤ S64x2048.size a
  hwx0_4 : ∀ i : grid0.Coords, EltTy.bits .f32 = 32 ∨ (Rect.block (s := S64x2048) S64x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S16384x2048.size a
  hwx0_5 : ∀ i : grid0.Coords, EltTy.bits .f32 = 32 ∨ (Rect.block (s := S16384x2048) S1024x2048.size (cc0_transform_5 i) (hinb0_5 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S64x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S64x2048 : Shape := ⟨2, ![64, 2048]⟩
abbrev S2048x64 : Shape := ⟨2, ![2048, 64]⟩
abbrev S2048x1 : Shape := ⟨2, ![2048, 1]⟩
abbrev S2048 : Shape := ⟨1, ![2048]⟩
abbrev S1x1x2048 : Shape := ⟨3, ![1, 1, 2048]⟩
abbrev S_ : Shape := ⟨0, ![]⟩
abbrev S4x4096 : Shape := ⟨2, ![4, 4096]⟩
abbrev S4x4096x1 : Shape := ⟨3, ![4, 4096, 1]⟩
abbrev S4x4096x64 : Shape := ⟨3, ![4, 4096, 64]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S2048x64, .f32⟩
  | .hbm, ⟨3, _⟩ => ⟨S2048x1, .f32⟩
  | .hbm, ⟨4, _⟩ => ⟨S2048, .f32⟩
  | .hbm, ⟨5, _⟩ => ⟨S1x1x2048, .f32⟩
  | .hbm, ⟨6, _⟩ => ⟨S4x4096x2048, .f32⟩
  | .hbm, ⟨7, _⟩ => ⟨S4x4096x2048, .f32⟩
  | .hbm, ⟨8, _⟩ => ⟨S_, .f32⟩
  | .hbm, ⟨9, _⟩ => ⟨S4x4096, .f32⟩
  | .hbm, ⟨10, _⟩ => ⟨S4x4096, .f32⟩
  | .hbm, ⟨11, _⟩ => ⟨S4x4096, .f32⟩
  | .hbm, ⟨12, _⟩ => ⟨S_, .f32⟩
  | .hbm, ⟨13, _⟩ => ⟨S4x4096, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x2048, .f32⟩
  | .hbm, ⟨20, _⟩ => ⟨S4x4096x2048, .f32⟩
  | .hbm, ⟨21, _⟩ => ⟨S4x4096x64, .f32⟩
  | .hbm, ⟨22, _⟩ => ⟨S4x4096x2048, .f32⟩
  | .hbm, ⟨23, _⟩ => ⟨S_, .f32⟩
  | .hbm, ⟨24, _⟩ => ⟨S4x4096x2048, .f32⟩
  | .hbm, ⟨25, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  shapeCasts_S2048x1_S2048 : S2048x1.ShapeCasts S2048
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  reducesTo_S4x4096x2048_S4x4096_d2 : S4x4096x2048.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x2048_0_1_2 : S4x4096x1.BroadcastsInDim S4x4096x2048 (![0, 1, 2] : Fin 3 → Fin S4x4096x2048.rank)
  bcast_S_S4x4096x2048 : S_.BroadcastsInDim S4x4096x2048 (![] : Fin 0 → Fin S4x4096x2048.rank)
  dot_S4x4096x2048_S64x2048_S4x4096x64_2_1_01_0_n_n_wf : DotDims.WF S4x4096x2048 S64x2048 S4x4096x64 [2] [1] [0, 1] [0] [] []
  dot_S4x4096x64_S2048x64_S4x4096x2048_2_1_01_0_n_n_wf : DotDims.WF S4x4096x64 S2048x64 S4x4096x2048 [2] [1] [0, 1] [0] [] []

variable [Facts₀]

def dot_S4x4096x2048_S64x2048_S4x4096x64_2_1_01_0_n_n : DotDims S4x4096x2048 S64x2048 S4x4096x64 where
  lhsContracting := [2]
  rhsContracting := [1]
  lhsNonContracting := [0, 1]
  rhsNonContracting := [0]
  lhsBatch := []
  rhsBatch := []
  wf := dot_S4x4096x2048_S64x2048_S4x4096x64_2_1_01_0_n_n_wf
def dot_S4x4096x64_S2048x64_S4x4096x2048_2_1_01_0_n_n : DotDims S4x4096x64 S2048x64 S4x4096x2048 where
  lhsContracting := [2]
  rhsContracting := [1]
  lhsNonContracting := [0, 1]
  rhsNonContracting := [0]
  lhsBatch := []
  rhsBatch := []
  wf := dot_S4x4096x64_S2048x64_S4x4096x2048_2_1_01_0_n_n_wf

class Facts : Prop extends Facts₀ where

variable [Facts]
-- ==== Proof.Spec.lean ====
/-
  The mathematics of the certificate, with no program in sight.

  A token is a pair (b, s); its row of `x` has 2048 entries.  Both programs compute, for every token and every
  output feature `o`,

      out[b, s, o] = 2 · σ(x[b,s,:] · g) · Σ_r (Σ_d x[b,s,d] · W_down[r,d]) · W_up[o,r],

  where σ is the logistic function.  The reference scales the ROW by the gate before the down-projection and
  multiplies by 2 at the very end (`refOut`); the kernel splits every sum over `d` into its lower and upper
  half, applies the gate (already doubled) to the rank-64 intermediate, and then projects up (`kerOut`).
  Over the reals the two agree by distributivity; on the extended reals distributivity needs every entry
  finite, which is what the hypotheses of `kerOut_eq_refOut` say.
-/
import Mathlib.Algebra.BigOperators.Fin
import Mathlib.Algebra.BigOperators.Ring.Finset
import Mathlib.Data.EReal.Basic
import Idealize.ShloMosaic.PureOps.Ideal
import Idealize.ShloMosaic.Lib.ValueIdx

noncomputable section

namespace Cert.Spec

open Idealize.ShloMosaic Idealize.ShloMosaic.ValueIdx

abbrev SX : Shape := ⟨3, ![4, 4096, 2048]⟩
abbrev SWd : Shape := ⟨2, ![64, 2048]⟩
abbrev SWu : Shape := ⟨2, ![2048, 64]⟩
abbrev SG : Shape := ⟨2, ![2048, 1]⟩

/-- The lower half of a row: column `d`. -/
def lo (d : Fin 1024) : Fin 2048 := ⟨d.val, by have := d.isLt; omega⟩
/-- The upper half of a row: column `1024 + d`. -/
def hi (d : Fin 1024) : Fin 2048 := ⟨1024 + d.val, by have := d.isLt; omega⟩

/-- The scale `alpha / rank = 128 / 64`, as both programs spell it: the binary32 pattern of 2.0. -/
abbrev two : EReal := Ideal.ofBits .f32 0x40000000#32

/-- The binary32 pattern `0x40000000` denotes the real number 2. -/
theorem ofBits_two : two = ((2 : ℝ) : EReal) := by
  simp [Ideal.ofBits, Ideal.ieee, -EReal.coe_mul]; norm_num

/-- A sum over a row of 2048 columns is the sum over its lower half plus the sum over its upper half. -/
theorem sum_halves {M : Type*} [AddCommMonoid M] (f : Fin 2048 → M) :
    ∑ d : Fin 2048, f d = (∑ d : Fin 1024, f (lo d)) + ∑ d : Fin 1024, f (hi d) := by
  have h := Fin.sum_univ_add (a := 1024) (b := 1024) (M := M) f
  have hlo : ∀ d : Fin 1024, (Fin.castAdd 1024 d : Fin (1024 + 1024)) = lo d := fun d => Fin.ext rfl
  have hhi : ∀ d : Fin 1024, (Fin.natAdd 1024 d : Fin (1024 + 1024)) = hi d := fun d => Fin.ext rfl
  simp only [hlo, hhi] at h
  exact h

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable (x : SX.Idx → EReal) (wd : SWd.Idx → EReal) (wu : SWu.Idx → EReal) (g : SG.Idx → EReal)

/-- The kernel's gate score of token (b, s): the two half-row dot products with the gate vector, added. -/
def kscore (b : Fin 4) (s : Fin 4096) : EReal :=
  (∑ d : Fin 1024, x (ix3 b s (lo d)) * g (ix2 (lo d) 0)) + (∑ d : Fin 1024, x (ix3 b s (hi d)) * g (ix2 (hi d) 0))

/-- The kernel's down-projection of token (b, s) at rank index `r`: the two half-row dot products with row `r` of
    `W_down`, added. -/
def kdown (b : Fin 4) (s : Fin 4096) (r : Fin 64) : EReal :=
  (∑ d : Fin 1024, x (ix3 b s (lo d)) * wd (ix2 r (lo d))) + (∑ d : Fin 1024, x (ix3 b s (hi d)) * wd (ix2 r (hi d)))

/-- What the kernel computes: the gated, doubled intermediate projected up. -/
def kerOut : SX.Idx → EReal := fun i =>
  ∑ r : Fin 64, (kdown x wd (i 0) (i 1) r * (Ideal.logistic (kscore x g (i 0) (i 1)) * two)) * wu (ix2 (i 2) r)

/-- The reference's gate score of token (b, s): the whole row's dot product with the gate vector. -/
def rscore (b : Fin 4) (s : Fin 4096) : EReal := ∑ d : Fin 2048, x (ix3 b s d) * g (ix2 d 0)

/-- What the reference computes: the gated row projected down, projected up, doubled. -/
def refOut : SX.Idx → EReal := fun i =>
  (∑ r : Fin 64, (∑ d : Fin 2048, (x (ix3 (i 0) (i 1) d) * Ideal.logistic (rscore x g (i 0) (i 1))) * wd (ix2 r d))
      * wu (ix2 (i 2) r)) * two

/-- The two gate scores are one number: the kernel's is the reference's with the row split in halves.  No finiteness
    is needed, addition on the extended reals being associative and commutative. -/
theorem kscore_eq_rscore (b : Fin 4) (s : Fin 4096) : kscore x g b s = rscore x g b s := by
  unfold kscore rscore
  exact (sum_halves (fun d => x (ix3 b s d) * g (ix2 d 0))).symm

/-- The kernel's down-projection is the whole row's dot product with row `r` of `W_down`. -/
theorem kdown_eq (b : Fin 4) (s : Fin 4096) (r : Fin 64) :
    kdown x wd b s r = ∑ d : Fin 2048, x (ix3 b s d) * wd (ix2 r d) := by
  unfold kdown
  exact (sum_halves (fun d => x (ix3 b s d) * wd (ix2 r d))).symm

/-- The identity at one token `(b, s)` and one output feature `o`, with real witnesses for every entry: both sides
    are coercions of real numbers, and over the reals the gate `p` and the factor 2 move through the sums by
    distributivity. -/
theorem out_eq (xr : SX.Idx → ℝ) (wdr : SWd.Idx → ℝ) (wur : SWu.Idx → ℝ) (gr : SG.Idx → ℝ)
    (hxr : ∀ i, x i = (xr i : EReal)) (hwdr : ∀ i, wd i = (wdr i : EReal))
    (hwur : ∀ i, wu i = (wur i : EReal)) (hgr : ∀ i, g i = (gr i : EReal))
    (b : Fin 4) (s : Fin 4096) (o : Fin 2048) :
    ∑ r : Fin 64, (kdown x wd b s r * (Ideal.logistic (kscore x g b s) * two)) * wu (ix2 o r)
      = (∑ r : Fin 64, (∑ d : Fin 2048, (x (ix3 b s d) * Ideal.logistic (rscore x g b s)) * wd (ix2 r d))
          * wu (ix2 o r)) * two := by
  -- the gate score is a real number, so its logistic value is a real number `p`
  have hs : rscore x g b s = ((∑ d : Fin 2048, xr (ix3 b s d) * gr (ix2 d 0) : ℝ) : EReal) := by
    unfold rscore
    rw [coe_sum]
    exact Finset.sum_congr rfl (fun d _ => by rw [hxr, hgr, EReal.coe_mul])
  rw [kscore_eq_rscore, hs, Ideal.logistic_coe, ofBits_two]
  generalize (1 + Real.exp (-(∑ d : Fin 2048, xr (ix3 b s d) * gr (ix2 d 0))))⁻¹ = p
  -- the two inner sums over a row, as real numbers
  have hdL : ∀ r : Fin 64, ∑ d : Fin 2048, x (ix3 b s d) * wd (ix2 r d)
      = ((∑ d : Fin 2048, xr (ix3 b s d) * wdr (ix2 r d) : ℝ) : EReal) := by
    intro r
    rw [coe_sum]
    exact Finset.sum_congr rfl (fun d _ => by rw [hxr, hwdr, EReal.coe_mul])
  have hdR : ∀ r : Fin 64, ∑ d : Fin 2048, (x (ix3 b s d) * (p : EReal)) * wd (ix2 r d)
      = ((∑ d : Fin 2048, (xr (ix3 b s d) * p) * wdr (ix2 r d) : ℝ) : EReal) := by
    intro r
    rw [coe_sum]
    exact Finset.sum_congr rfl (fun d _ => by rw [hxr, hwdr, EReal.coe_mul, EReal.coe_mul])
  -- the kernel's side as a real number
  have hL : ∀ r : Fin 64, (kdown x wd b s r * ((p : EReal) * ((2 : ℝ) : EReal))) * wu (ix2 o r)
      = ((((∑ d : Fin 2048, xr (ix3 b s d) * wdr (ix2 r d)) * (p * 2)) * wur (ix2 o r) : ℝ) : EReal) := by
    intro r
    rw [kdown_eq, hdL, hwur, EReal.coe_mul, EReal.coe_mul, EReal.coe_mul]
  -- the reference's side as a real number
  have hR : ∀ r : Fin 64, (∑ d : Fin 2048, (x (ix3 b s d) * (p : EReal)) * wd (ix2 r d)) * wu (ix2 o r)
      = (((∑ d : Fin 2048, (xr (ix3 b s d) * p) * wdr (ix2 r d)) * wur (ix2 o r) : ℝ) : EReal) := by
    intro r
    rw [hdR, hwur, EReal.coe_mul]
  rw [Finset.sum_congr rfl (fun r _ => hL r), Finset.sum_congr rfl (fun r _ => hR r), ← coe_sum, ← coe_sum,
    ← EReal.coe_mul, EReal.coe_eq_coe_iff]
  -- the identity over the reals
  rw [Finset.sum_mul]
  refine Finset.sum_congr rfl (fun r _ => ?_)
  have hd : ∑ d : Fin 2048, (xr (ix3 b s d) * p) * wdr (ix2 r d)
      = p * ∑ d : Fin 2048, xr (ix3 b s d) * wdr (ix2 r d) := by
    rw [Finset.mul_sum]
    exact Finset.sum_congr rfl (fun d _ => by ring)
  rw [hd]
  ring

/-- With every entry of the four arrays a real number, the kernel's arrangement and the reference's are one
    function. -/
theorem kerOut_eq_refOut (hx : ∀ i, ∃ r : ℝ, x i = (r : EReal)) (hwd : ∀ i, ∃ r : ℝ, wd i = (r : EReal))
    (hwu : ∀ i, ∃ r : ℝ, wu i = (r : EReal)) (hg : ∀ i, ∃ r : ℝ, g i = (r : EReal)) :
    kerOut x wd wu g = refOut x wd wu g := by
  choose xr hxr using hx
  choose wdr hwdr using hwd
  choose wur hwur using hwu
  choose gr hgr using hg
  funext i
  exact out_eq x wd wu g xr wdr wur gr hxr hwdr hwur hgr (i 0) (i 1) (i 2)

end Cert.Spec

end
-- ==== Proof.Flat.lean ====
/-
  The kernel's arithmetic on the flattened arrays it is handed.

  The program hands the kernel the token tensor flattened to a matrix of 16384 rows (one per token), the gate as a
  row vector, and the two projection matrices transposed.  `flatOut` is the kernel's result over those: row `t`,
  column `o` is Σ_r (down t r · (σ(score t) · 2)) · up[r, o], every sum over the 2048 columns of a row taken as its
  lower half plus its upper half.
-/
import proofs.«135205_g4131758539051_cont_8to1_b_278_9_alg».proof.Proof.Spec

noncomputable section

namespace Cert.Spec

open Idealize.ShloMosaic Idealize.ShloMosaic.ValueIdx

abbrev SXf : Shape := ⟨2, ![16384, 2048]⟩
abbrev SGt : Shape := ⟨2, ![1, 2048]⟩
abbrev SWdT : Shape := ⟨2, ![2048, 64]⟩
abbrev SWuT : Shape := ⟨2, ![64, 2048]⟩

variable (xf : SXf.Idx → EReal) (gt : SGt.Idx → EReal) (wdt : SWdT.Idx → EReal) (wut : SWuT.Idx → EReal)

/-- The gate score of token `t`: the two half-row dot products with the gate row, added. -/
def fscore (t : Fin 16384) : EReal :=
  (∑ d : Fin 1024, xf (ix2 t (lo d)) * gt (ix2 0 (lo d))) + (∑ d : Fin 1024, xf (ix2 t (hi d)) * gt (ix2 0 (hi d)))

/-- The down-projection of token `t` at rank index `r`: the two half-row dot products with column `r` of the
    transposed `W_down`, added. -/
def fdown (t : Fin 16384) (r : Fin 64) : EReal :=
  (∑ d : Fin 1024, xf (ix2 t (lo d)) * wdt (ix2 (lo d) r)) + (∑ d : Fin 1024, xf (ix2 t (hi d)) * wdt (ix2 (hi d) r))

/-- The kernel's result on the flattened arrays. -/
def flatOut : SXf.Idx → EReal := fun j =>
  ∑ r : Fin 64, (fdown xf wdt (j 0) r * (Ideal.logistic (fscore xf gt (j 0)) * two)) * wut (ix2 r (j 1))

end Cert.Spec

end
-- ==== Proof.Finite.lean ====
/-
  From the precondition to real numbers: `finite_inputs` says of each of the four argument arrays that every entry's
  absolute value is below +infinity; at the exact extended reals that makes every entry a real number.
-/
import proofs.«135205_g4131758539051_cont_8to1_b_278_9_alg».proof.Pre_finite_inputs
import proofs.«135205_g4131758539051_cont_8to1_b_278_9_alg».proof.Proof.Gen.Pre_finite_inputs
import Idealize.ShloMosaic.PureOps.Ideal
import Idealize.ShloMosaic.Lib.ValueIdx
import Idealize.ShloMosaic.Lib.ReduceAll

noncomputable section

namespace Cert.Finite

open Idealize.ShloMosaic Idealize.ShloMosaic.ValueIdx Cert.Pre_finite_inputs

/-- The shape of rank zero has exactly one index: two indices agree because there is no axis to differ on. -/
instance subsingleton_scalar_idx : Subsingleton S_.Idx := ⟨fun a b => funext fun d => d.elim0⟩

/-- The binary32 pattern with all exponent bits set and a zero mantissa denotes +infinity. -/
theorem inf_bits : Ideal.ofBits .f32 0x7F800000#32 = (⊤ : EReal) := by simp [Ideal.ofBits, Ideal.ieee]

/-- An extended real whose absolute value `max x (-x)` is strictly below +infinity is a real number:
    both infinities have absolute value +infinity, which is not below itself. -/
theorem real_of_abs_lt_top (x : EReal) (h : Ideal.cmp .olt (max x (-x)) (⊤ : EReal) = 1#1) :
    ∃ r : ℝ, x = (r : EReal) := by
  induction x using EReal.rec with
  | bot => simp [Ideal.cmp] at h
  | coe r => exact ⟨r, rfl⟩
  | top => simp [Ideal.cmp] at h

/-- Over an array of any shape: if the conjunction, over all entries, of `|x i| < +infinity` (the comparison against the
    broadcast constant, folded by `and` from 1 over every axis) is 1, then every entry is a real number. A fold by `and`
    that ends in 1 met a 1 at every index, and a 1 at index `i` is the strict bound on `|x i|`. -/
theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf x) (broadcastInDim s ![] hb (constant S_ .f32 0x7F800000#32))) init hr hu j = 1#1)
    (i : s.Idx) : ∃ r : ℝ, x i = (r : EReal) := by
  have hi := Host.reduce_andi_all _ init hr hu j e i
  apply real_of_abs_lt_top
  rw [← inf_bits]
  exact hi

/-- If `finite_inputs` of four arrays is all ones then every entry of each of them is a real number. -/
theorem real_of_pre [Cert.Pre_finite_inputs.Facts] (a0 : FVec Ideal S4x4096x2048 .f32) (a1 : FVec Ideal S64x2048 .f32) (a2 : FVec Ideal S2048x64 .f32)
    (a3 : FVec Ideal S2048x1 .f32)
    (h : Cert.Pre_finite_inputs.fn (F := Ideal) a0 a1 a2 a3 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  -- the result at its one index is the `and` of the four per-array conjunctions, nested to the left
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨real_of_all a0 _ _ _ _ _ h0', real_of_all a1 _ _ _ _ _ h1, real_of_all a2 _ _ _ _ _ h2,
    real_of_all a3 _ _ _ _ _ h3⟩

end Cert.Finite

end
-- ==== Proof.RefValue.lean ====
/-
  The reference's result array, read index by index: the last stage of the reference's run IS `Cert.Spec.refOut`
  of the four argument arrays.
-/
import proofs.«135205_g4131758539051_cont_8to1_b_278_9_alg».proof.Proof.Gen.ReferenceIdeal.Run
import proofs.«135205_g4131758539051_cont_8to1_b_278_9_alg».proof.Proof.Gen.ReferenceIdeal.Read
import proofs.«135205_g4131758539051_cont_8to1_b_278_9_alg».proof.Proof.Spec
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The binary32 pattern of 1.0 denotes the real number 1. -/
theorem ofBits_one : Ideal.ofBits .f32 0x3F800000#32 = 1 := by
  simp [Ideal.ofBits, Ideal.ieee, -EReal.coe_mul]; norm_num

/-- The gate vector, reshaped to a row and broadcast over every token, read at an index: entry d of the gate. -/
theorem gate_apply (x3 : (⟨S2048x1, .f32⟩ : BufTy).Contents (Elt Ideal)) (j : S4x4096x2048.Idx) :
    val_main_v2 (F := Ideal) x3 j = x3 (ix2 (j 2) 0) := by
  rw [val_main_v2_apply, val_main_v1_apply, val_main_v0_apply]
  refine congrArg x3 (funext fun a => Fin.ext ?_)
  match a with
  | ⟨0, _⟩ => exact Nat.div_one _
  | ⟨1, _⟩ => rfl

/-- The index the row sum reads at step k of token j is (b, s, k). -/
theorem idx4_eq (j : S4x4096.Idx) (k : Fin 2048) : idx_main_v4 j k = ix3 (j 0) (j 1) k :=
  funext fun a => Fin.ext (by match a with | ⟨0, _⟩ => rfl | ⟨1, _⟩ => rfl | ⟨2, _⟩ => rfl)

/-- The gate score of token (b, s): zero plus the dot product of the row with the gate vector. -/
theorem score_apply (x0 : (⟨S4x4096x2048, .f32⟩ : BufTy).Contents (Elt Ideal)) (x3 : (⟨S2048x1, .f32⟩ : BufTy).Contents (Elt Ideal))
    (j : S4x4096.Idx) :
    val_main_v4 (F := Ideal) x0 x3 j = Cert.Spec.rscore x0 x3 (j 0) (j 1) := by
  rw [val_main_v4_apply, val_main_cst_apply, Ideal.ofBits_def, Ideal.ofBits_zero_f32, zero_add]
  unfold Cert.Spec.rscore
  refine Finset.sum_congr rfl fun k _ => ?_
  rw [val_main_v3_apply, gate_apply, Ideal.mulf_def, idx4_eq]
  rfl

/-- The gate of token (b, s): the quotient 1 / (1 + exp (-score)) is the logistic function of the score. -/
theorem sigmoid_apply (x0 : (⟨S4x4096x2048, .f32⟩ : BufTy).Contents (Elt Ideal)) (x3 : (⟨S2048x1, .f32⟩ : BufTy).Contents (Elt Ideal))
    (j : S4x4096.Idx) :
    val_main_v10 (F := Ideal) x0 x3 j = Ideal.logistic (Cert.Spec.rscore x0 x3 (j 0) (j 1)) := by
  rw [val_main_v10_apply, val_main_v9_apply, val_main_cst_1_apply, val_main_v8_apply, val_main_v7_apply,
    val_main_cst_0_apply, val_main_v6_apply, val_main_v5_apply, score_apply,
    Ideal.hostDivf_def, Ideal.addf_def, Ideal.hostUnary_exp_def, Ideal.hostNegf_def, Ideal.negf_def,
    Ideal.ofBits_def, ofBits_one]
  rfl

/-- The row scaled by its gate: entry (b, s, d) of the input times the logistic of token (b, s)'s score. -/
theorem scaled_apply (x0 : (⟨S4x4096x2048, .f32⟩ : BufTy).Contents (Elt Ideal)) (x3 : (⟨S2048x1, .f32⟩ : BufTy).Contents (Elt Ideal))
    (i : S4x4096x2048.Idx) :
    val_main_v13 (F := Ideal) x0 x3 i = x0 i * Ideal.logistic (Cert.Spec.rscore x0 x3 (i 0) (i 1)) := by
  rw [val_main_v13_apply, val_main_v12_apply, val_main_v11_apply, sigmoid_apply, Ideal.mulf_def]
  rfl

/-- The left index of the down-projection at step k is (b, s, k). -/
theorem lidx14_eq (j : S4x4096x64.Idx) (k : Fin 2048) : lidx_main_v14 j k = ix3 (j 0) (j 1) k :=
  funext fun a => Fin.ext (by match a with | ⟨0, _⟩ => rfl | ⟨1, _⟩ => rfl | ⟨2, _⟩ => rfl)

/-- The right index of the down-projection at step k is (r, k). -/
theorem ridx14_eq (j : S4x4096x64.Idx) (k : Fin 2048) : ridx_main_v14 j k = ix2 (j 2) k :=
  funext fun a => Fin.ext (by match a with | ⟨0, _⟩ => rfl | ⟨1, _⟩ => rfl)

/-- The down-projection: entry (b, s, r) is the gated row's dot product with row r of the down weights. -/
theorem down_apply (x0 : (⟨S4x4096x2048, .f32⟩ : BufTy).Contents (Elt Ideal)) (x1 : (⟨S64x2048, .f32⟩ : BufTy).Contents (Elt Ideal))
    (x3 : (⟨S2048x1, .f32⟩ : BufTy).Contents (Elt Ideal)) (j : S4x4096x64.Idx) :
    val_main_v14 (F := Ideal) x0 x1 x3 j
      = ∑ d : Fin 2048, (x0 (ix3 (j 0) (j 1) d) * Ideal.logistic (Cert.Spec.rscore x0 x3 (j 0) (j 1))) * x1 (ix2 (j 2) d) := by
  rw [val_main_v14_apply]
  refine Finset.sum_congr rfl fun k _ => ?_
  rw [scaled_apply, lidx14_eq, ridx14_eq]
  rfl

/-- The left index of the up-projection at step r is (b, s, r). -/
theorem lidx15_eq (i : S4x4096x2048.Idx) (k : Fin 64) : lidx_main_v15 i k = ix3 (i 0) (i 1) k :=
  funext fun a => Fin.ext (by match a with | ⟨0, _⟩ => rfl | ⟨1, _⟩ => rfl | ⟨2, _⟩ => rfl)

/-- The right index of the up-projection at step r is (o, r). -/
theorem ridx15_eq (i : S4x4096x2048.Idx) (k : Fin 64) : ridx_main_v15 i k = ix2 (i 2) k :=
  funext fun a => Fin.ext (by match a with | ⟨0, _⟩ => rfl | ⟨1, _⟩ => rfl)

/-- The up-projection: entry (b, s, o) is the down-projected token's dot product with row o of the up weights. -/
theorem up_apply (x0 : (⟨S4x4096x2048, .f32⟩ : BufTy).Contents (Elt Ideal)) (x1 : (⟨S64x2048, .f32⟩ : BufTy).Contents (Elt Ideal))
    (x2 : (⟨S2048x64, .f32⟩ : BufTy).Contents (Elt Ideal)) (x3 : (⟨S2048x1, .f32⟩ : BufTy).Contents (Elt Ideal)) (i : S4x4096x2048.Idx) :
    val_main_v15 (F := Ideal) x0 x1 x2 x3 i
      = ∑ r : Fin 64, (∑ d : Fin 2048, (x0 (ix3 (i 0) (i 1) d) * Ideal.logistic (Cert.Spec.rscore x0 x3 (i 0) (i 1))) * x1 (ix2 r d))
          * x2 (ix2 (i 2) r) := by
  rw [val_main_v15_apply]
  refine Finset.sum_congr rfl fun r _ => ?_
  rw [down_apply, lidx15_eq, ridx15_eq]
  rfl

/-- The reference's last stage, at the exact extended reals, is `refOut` of the argument arrays. -/
theorem val_eq_refOut (x0 : (⟨S4x4096x2048, .f32⟩ : BufTy).Contents (Elt Ideal)) (x1 : (⟨S64x2048, .f32⟩ : BufTy).Contents (Elt Ideal))
    (x2 : (⟨S2048x64, .f32⟩ : BufTy).Contents (Elt Ideal)) (x3 : (⟨S2048x1, .f32⟩ : BufTy).Contents (Elt Ideal)) :
    val_main_v17 (F := Ideal) x0 x1 x2 x3 = Cert.Spec.refOut x0 x1 x2 x3 := by
  funext i
  rw [val_main_v17_apply, val_main_v16_apply, val_main_cst_2_apply, up_apply, Ideal.mulf_def, Ideal.ofBits_def]
  rfl

end Cert.ReferenceIdeal.RefValue

end
-- ==== Proof.KiBody.lean ====
/-
  The kernel body at one grid point.

  The pipeline calls the body with six staging buffers: the lower and the upper half (1024 columns each) of a
  block of 1024 rows of the token matrix, the gate row, the transposed down-projection, the transposed
  up-projection, and the output block.  The body reads the first five, computes, and overwrites the whole
  output block with one store; what that block then holds is the store's payload as a function of the five
  input blocks (`outBlk`).  The proof data say so at every point, and say that each input buffer still holds
  its block when the body returns.  The token matrix is handed to the pipeline twice (two windows on one
  array), so the proof data hold it at two half shares.
-/
import proofs.«135205_g4131758539051_cont_8to1_b_278_9_alg».proof.Proof.Gen.KernelIdeal.Launch
import proofs.«135205_g4131758539051_cont_8to1_b_278_9_alg».proof.Proof.Gen.KernelIdeal.Skeleton
import proofs.«135205_g4131758539051_cont_8to1_b_278_9_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved, and the body left the block in place.  One statement per input window. -/
theorem before_in_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rHalf : Rect S1024x1024 := Rect.unit (s := S1024x1024) ![0, 0] S1024x1024.size inb_S1024x1024_S1024x1024_0_0
abbrev rGate : Rect S1x2048 := Rect.unit (s := S1x2048) ![0, 0] S1x2048.size inb_S1x2048_S1x2048_0_0
abbrev rDownLo : Rect S2048x64 := Rect.unit (s := S2048x64) ![0, 0] S1024x64.size inb_S2048x64_S1024x64_0_0
abbrev rDownHi : Rect S2048x64 := Rect.unit (s := S2048x64) ![1024, 0] S1024x64.size inb_S2048x64_S1024x64_1024_0
abbrev rUp : Rect S64x2048 := Rect.unit (s := S64x2048) ![0, 0] S64x2048.size inb_S64x2048_S64x2048_0_0
abbrev rOut : Rect S1024x2048 := Rect.unit (s := S1024x2048) ![0, 0] S1024x2048.size inb_S1024x2048_S1024x2048_0_0

/-! ## What the body leaves in the output window's buffer -/

/-- The output block after the body, from the five input blocks: its one store, which covers the block. -/
def outBlk (x0 x1 : Vec F S1024x1024 .f32) (x2 : Vec F S1x2048 .f32) (x3 : Vec F S2048x64 .f32) (x4 : Vec F S64x2048 .f32) :
    Vec F S1024x2048 .f32 :=
  View.canon [⟨rOut, k0_pay1 (View.ld x0 rHalf) (View.ld x1 rHalf) (View.ld x2 rGate) (View.ld x3 rDownLo) (View.ld x3 rDownHi) (View.ld x4 rUp)⟩]

/-- The store's rectangle is the whole block. -/
theorem cover_out (p0 : Vec F S1024x2048 .f32) (y : S1024x2048.Idx) :
    ∃ pc ∈ ([⟨rOut, p0⟩] : List (View.Piece (Elt F) S1024x2048 .f32)), y ∈ pc.1.set :=
  View.cover_of_tiled [⟨rOut, p0⟩] S1024x2048.size (by rfl) y

/-! ## The body's triple -/

set_option maxHeartbeats 4000000 in
/-- The body on whole staging memrefs, the inputs' at read contents `x0 … x4` and the output's at anything, runs to
    the continuation holding the inputs' as they were and the output's at `outBlk` of the inputs'. -/
theorem sound_kernel (c : Dev nD) (E : Set ℕ) (i : grid0.Coords)
    (arg1 : Memref sig .tc .vmem S1024x1024 .f32) (harg1 : arg1.IsWhole) (arg2 : Memref sig .tc .vmem S1024x1024 .f32) (harg2 : arg2.IsWhole)
    (arg3 : Memref sig .tc .vmem S1x2048 .f32) (harg3 : arg3.IsWhole) (arg4 : Memref sig .tc .vmem S2048x64 .f32) (harg4 : arg4.IsWhole)
    (arg5 : Memref sig .tc .vmem S64x2048 .f32) (harg5 : arg5.IsWhole) (arg6 : Memref sig .tc .vmem S1024x2048 .f32) (harg6 : arg6.IsWhole)
    (x0 x1 : Vec F S1024x1024 .f32) (x2 : Vec F S1x2048 .f32) (x3 : Vec F S2048x64 .f32) (x4 : Vec F S64x2048 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlk x0 x1 x2 x3 x4)) -∗ K ⟨⟩))
      ⊢ wp frame (wpE (defs₀ (F := F)) Variants.none c none) E (cc0__lambda_ i arg1 harg1 arg2 harg2 arg3 harg3 arg4 harg4 arg5 harg5 arg6 harg6) K := by
  simp only [cc0__lambda__eq_skeleton]; unfold cc0__lambda__skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The pipeline's proof data -/

/-- The proof data on core `c`: the arrays as the region finds them; after the body at point `t` each input's buffer
    at its block and the output's at `outBlk` of the input blocks; the invariant the scoped rest and the generator
    register, untouched; nothing owed; the token matrix, which two windows read, held at two half shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outBlk (iblk V c 0 t) (iblk V c 1 t) (iblk V c 2 t) (iblk V c 3 t) (iblk V c 4 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) :
    (dat V c).after 5 t = outBlk (iblk V c 0 t) (iblk V c 1 t) (iblk V c 2 t) (iblk V c 3 t) (iblk V c 4 t) := by dsimp only [dat]

theorem before_0 (c : Dev nD) (t : Fin cfg0.N) (d) : (dat V c).before 0 t d = iblk V c 0 t :=
  before_in_0_of V (dat V c) (A_eq V c 0) (after_0 V c) t d
theorem before_1 (c : Dev nD) (t : Fin cfg0.N) (d) : (dat V c).before 1 t d = iblk V c 1 t :=
  before_in_1_of V (dat V c) (A_eq V c 1) (after_1 V c) t d
theorem before_2 (c : Dev nD) (t : Fin cfg0.N) (d) : (dat V c).before 2 t d = iblk V c 2 t :=
  before_in_2_of V (dat V c) (A_eq V c 2) (after_2 V c) t d
theorem before_3 (c : Dev nD) (t : Fin cfg0.N) (d) : (dat V c).before 3 t d = iblk V c 3 t :=
  before_in_3_of V (dat V c) (A_eq V c 3) (after_3 V c) t d
theorem before_4 (c : Dev nD) (t : Fin cfg0.N) (d) : (dat V c).before 4 t d = iblk V c 4 t :=
  before_in_4_of V (dat V c) (A_eq V c 4) (after_4 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the inputs' memrefs hold their blocks, so `sound_kernel` applies; the invariant and the
    core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Fr

end
-- ==== Proof.KiRun.lean ====
/-
  The launch: @main is two reshapes and two transposes, the kernel region, and one reshape.

  The region is entered holding every unscoped buffer at the contents the first four host operations leave.  The
  token matrix is read by two windows, so its buffer, held whole, is split into two half shares on the way in and
  joined again on the way out; every other array of the pipeline is held whole.  At the exit the result array
  holds what the sixteen write-backs leave, every other buffer what it held at the entry; the last reshape then
  runs over those.  Read against the final state, the program's result is that reshape of the result array and
  the four arguments are as launched.
-/
import proofs.«135205_g4131758539051_cont_8to1_b_278_9_alg».proof.Proof.KiBody
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pipeline's arrays, two of them one buffer -/

section Share

variable (V : (c : Dev nD) → (b : Ref sig .tc) → Buf (Elt F) ((c : Thread nD τ).loc b))

/-- The six windows' arrays are five buffers. -/
theorem img_arr : Finset.univ.image (Pipeline.arrRef spec0) = ({main_v0, main_v3, main_v1, main_v2, main_v4} : Finset (Ref sig .tc)) := by decide

/-- The proof data's arrays, each a whole buffer, at its share. -/
theorem arrays_eq' (c : Dev nD) (Fw : (w : Fin cfg0.W) → Buf (Elt F) ((cfg0.win w).arr.view.loc (c : Thread nD τ))) :
    ((dat V c).arrays Fw : sProp 𝕄)
      = bigSep Finset.univ fun w => ((((c : Thread nD τ).loc (Pipeline.arrRef spec0 w)) ↦{(dat V c).share w} Fw w : sProp 𝕄)) := by
  unfold Dat.arrays
  exact bigSep_congr fun w _ => by rw [(arr_whole0 w).set_eq_univ]

/-- The same, window by window: the token matrix at its two half shares, the rest whole. -/
theorem arrays_chain (c : Dev nD) (Fw : (w : Fin cfg0.W) → Buf (Elt F) ((cfg0.win w).arr.view.loc (c : Thread nD τ))) :
    ((dat V c).arrays Fw : sProp 𝕄)
      = iprop((((c : Thread nD τ).loc main_v0) ↦{fullShare.left} Fw 0) ∗ (((c : Thread nD τ).loc main_v0) ↦{fullShare.right} Fw 1)
          ∗ (((c : Thread nD τ).loc main_v3) ↦{fullShare} Fw 2) ∗ (((c : Thread nD τ).loc main_v1) ↦{fullShare} Fw 3)
          ∗ (((c : Thread nD τ).loc main_v2) ↦{fullShare} Fw 4) ∗ (((c : Thread nD τ).loc main_v4) ↦{fullShare} Fw 5)) := by
  rw [arrays_eq', bigSep_W0]
  rfl

/-- The five buffers behind the arrays, each whole. -/
theorem arrBufs_chain (c : Dev nD) (V' : (b : Ref sig .tc) → Buf (Elt F) ((c : Thread nD τ).loc b)) :
    (Pipeline.arrBufs spec0 c V' : sProp 𝕄)
      = iprop((((c : Thread nD τ).loc main_v0) ↦{fullShare} V' main_v0)
          ∗ (((c : Thread nD τ).loc main_v3) ↦{fullShare} V' main_v3) ∗ (((c : Thread nD τ).loc main_v1) ↦{fullShare} V' main_v1)
          ∗ (((c : Thread nD τ).loc main_v2) ↦{fullShare} V' main_v2) ∗ (((c : Thread nD τ).loc main_v4) ↦{fullShare} V' main_v4)) := by
  unfold Pipeline.arrBufs
  rw [img_arr, BI.bigSep_insert (by decide), BI.bigSep_insert (by decide), BI.bigSep_insert (by decide), BI.bigSep_insert (by decide), BI.bigSep_singleton]
  rfl

/-- The buffers behind the arrays, whole at `V'`, ARE the proof data's arrays at contents read off `V'`: the token
    matrix's full share is its two halves. -/
theorem arrBufs_arrays (c : Dev nD) (Fw : (w : Fin cfg0.W) → Buf (Elt F) ((cfg0.win w).arr.view.loc (c : Thread nD τ)))
    (V' : (b : Ref sig .tc) → Buf (Elt F) ((c : Thread nD τ).loc b)) (hF : ∀ w, Fw w = V' (Pipeline.arrRef spec0 w)) :
    (Pipeline.arrBufs spec0 c V' : sProp 𝕄) ⊣⊢ (dat V c).arrays Fw := by
  have h0 : Fw 0 = V' main_v0 := hF 0
  have h1 : Fw 1 = V' main_v0 := hF 1
  have h2 : Fw 2 = V' main_v3 := hF 2
  have h3 : Fw 3 = V' main_v1 := hF 3
  have h4 : Fw 4 = V' main_v2 := hF 4
  have h5 : Fw 5 = V' main_v4 := hF 5
  rw [arrBufs_chain, arrays_chain, h0, h1, h2, h3, h4, h5]
  refine ⟨?_, ?_⟩
  · iintro ⟨H0, H3, H1, H2, H4⟩
    ihave H0' := (pointsTo_share (PosShare.mem_left_op_right fullShare)).1 $$ H0
    icases H0' with ⟨Ha, Hb⟩
    isplitl [Ha]; · iexact Ha
    isplitl [Hb]; · iexact Hb
    isplitl [H3]; · iexact H3
    isplitl [H1]; · iexact H1
    isplitl [H2]; · iexact H2
    iexact H4
  · iintro ⟨Ha, Hb, H3, H1, H2, H4⟩
    isplitl [Ha Hb]
    · iapply (pointsTo_share (PosShare.mem_left_op_right fullShare)).2
      isplitl [Ha]; · iexact Ha
      iexact Hb
    isplitl [H3]; · iexact H3
    isplitl [H1]; · iexact H1
    isplitl [H2]; · iexact H2
    iexact H4

end Share

/-! ## The buffer contents at each segment boundary -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first four host operations (the region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the region's exit: the result array at what the write-backs leave, every other buffer as entered. -/
def W2 (c : Dev nD) : Valuation τ sig (Elt F) := fun b =>
  if h : Proc.devRef .tc main_v4 = b then
    cast (congrArg (fun b' : DevRef τ sig => b'.ty.Contents (Elt F)) h) ((dat (V1 m ρ) c).arrAt 5 cfg0.N)
  else W1 m ρ c b
theorem W2_out (c : Dev nD) : W2 m ρ c (Proc.devRef .tc main_v4) = (dat (V1 m ρ) c).arrAt 5 cfg0.N := by
  unfold W2; rw [dif_pos rfl]; rfl
theorem W2_of_ne (c : Dev nD) (b : Ref sig .tc) (hb : main_v4 ≠ b) :
    W2 m ρ c (Proc.devRef .tc b) = W1 m ρ c (Proc.devRef .tc b) := by
  unfold W2; rw [dif_neg]; intro e; exact hb (Proc.devRef_injective _ e)
/-- The same read at the TensorCore's references. -/
abbrev V2 : (c : Dev nD) → (b : Ref sig .tc) → Buf (Elt F) ((c : Thread nD τ).loc b) := fun c b => W2 m ρ c b
/-- After the last host operation. -/
abbrev W3 : Dev nD → Valuation τ sig (Elt F) := fun c => StableHlo.after hostOps1 (W2 m ρ c)

/-- At the exit each array of the pipeline holds what the pipeline leaves: an input as entered, the result array its
    write-backs. -/
theorem exit_arr (c : Dev nD) (w : Fin cfg0.W) : (dat (V1 m ρ) c).arrAt w cfg0.N = V2 m ρ c (Pipeline.arrRef spec0 w) :=
  match w with
  | ⟨0, _⟩ => ((dat (V1 m ρ) c).arrAt_in 0 rfl _).trans ((A_eq (V1 m ρ) c 0).trans (W2_of_ne m ρ c main_v0 (by decide)).symm)
  | ⟨1, _⟩ => ((dat (V1 m ρ) c).arrAt_in 1 rfl _).trans ((A_eq (V1 m ρ) c 1).trans (W2_of_ne m ρ c main_v0 (by decide)).symm)
  | ⟨2, _⟩ => ((dat (V1 m ρ) c).arrAt_in 2 rfl _).trans ((A_eq (V1 m ρ) c 2).trans (W2_of_ne m ρ c main_v3 (by decide)).symm)
  | ⟨3, _⟩ => ((dat (V1 m ρ) c).arrAt_in 3 rfl _).trans ((A_eq (V1 m ρ) c 3).trans (W2_of_ne m ρ c main_v1 (by decide)).symm)
  | ⟨4, _⟩ => ((dat (V1 m ρ) c).arrAt_in 4 rfl _).trans ((A_eq (V1 m ρ) c 4).trans (W2_of_ne m ρ c main_v2 (by decide)).symm)
  | ⟨5, _⟩ => (W2_out m ρ c).symm
/-- and every other buffer what it held at the entry. -/
theorem exit_rest (c : Dev nD) : ∀ b, b ∉ Finset.univ.image (Pipeline.arrRef spec0) → V2 m ρ c b = V1 m ρ c b :=
  fun b hb => W2_of_ne m ρ c b fun e => hb (Finset.mem_image.mpr ⟨5, Finset.mem_univ _, e⟩)

/-! ### What the run reads at the end -/

/-- No host operation writes an argument. -/
theorem not_written0 (c : Dev nD) (b : Ref sig .tc) (h0 : main_v0 ≠ b) (h1 : main_v1 ≠ b) (h2 : main_v2 ≠ b) (h3 : main_v3 ≠ b)
    (W : Valuation τ sig (Elt F)) : StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.reshape_writes, Finset.mem_singleton]
    exact ⟨StableHlo.devRef_ne_of_ne h0.symm, StableHlo.devRef_ne_of_ne h1.symm, StableHlo.devRef_ne_of_ne h2.symm, StableHlo.devRef_ne_of_ne h3.symm⟩))
theorem not_written1 (c : Dev nD) (b : Ref sig .tc) (h5 : main_v5 ≠ b)
    (W : Valuation τ sig (Elt F)) : StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.reshape_writes, Finset.mem_singleton]
    exact StableHlo.devRef_ne_of_ne h5.symm))

/-- An argument array holds at the end what it held at launch: nothing writes it. -/
theorem W3_arg (c : Dev nD) (b : Ref sig .tc) (h0 : main_v0 ≠ b) (h1 : main_v1 ≠ b) (h2 : main_v2 ≠ b) (h3 : main_v3 ≠ b)
    (h4 : main_v4 ≠ b) (h5 : main_v5 ≠ b) : W3 m ρ c (Proc.devRef .tc b) = m ((c : Thread nD τ).loc b) :=
  calc W3 m ρ c (Proc.devRef .tc b)
    _ = W2 m ρ c (Proc.devRef .tc b) := not_written1 c b h5 _
    _ = W1 m ρ c (Proc.devRef .tc b) := W2_of_ne m ρ c b h4
    _ = W0 m ρ c (Proc.devRef .tc b) := not_written0 c b h0 h1 h2 h3 _
    _ = m ((c : Thread nD τ).loc b) := rfl

/-- The program's result is the last reshape of the result array. -/
theorem W3_result (c : Dev nD) :
    W3 m ρ c (Proc.devRef .tc main_v5)
      = shapeCast S4x4096x2048 ((dat (V1 m ρ) c).arrAt 5 cfg0.N) shapeCasts_S16384x2048_S4x4096x2048 := by
  rw [← W2_out m ρ c]
  show StableHlo.after hostOps1 (W2 m ρ c) (Proc.devRef .tc main_v5) = _
  after_results
  rfl

/-- The arrays the region is entered with, as the host operations make them from the arguments. -/
theorem V1_main_v0 (c : Dev nD) :
    V1 m ρ c main_v0 = shapeCast S16384x2048 (m ((c : Thread nD τ).loc main_arg0)) shapeCasts_S4x4096x2048_S16384x2048 := by
  show StableHlo.after hostOps0 (W0 m ρ c) (Proc.devRef .tc main_v0) = _
  after_results
  rfl
theorem V1_main_v1 (c : Dev nD) :
    V1 m ρ c main_v1 = transpose S2048x64 [1, 0] (m ((c : Thread nD τ).loc main_arg1)) transposes_S64x2048_S2048x64_1_0 := by
  show StableHlo.after hostOps0 (W0 m ρ c) (Proc.devRef .tc main_v1) = _
  after_results
theorem V1_main_v2 (c : Dev nD) :
    V1 m ρ c main_v2 = transpose S64x2048 [1, 0] (m ((c : Thread nD τ).loc main_arg2)) transposes_S2048x64_S64x2048_1_0 := by
  show StableHlo.after hostOps0 (W0 m ρ c) (Proc.devRef .tc main_v2) = _
  after_results
theorem V1_main_v3 (c : Dev nD) :
    V1 m ρ c main_v3 = shapeCast S1x2048 (m ((c : Thread nD τ).loc main_arg3)) shapeCasts_S2048x1_S1x2048 := by
  show StableHlo.after hostOps0 (W0 m ρ c) (Proc.devRef .tc main_v3) = _
  after_results
  rfl

/-! ## The proof data family and the thread state -/

/-- The pipeline has no prefetched table. -/
abbrev adm : (p : Fin 1) → (pcfgs (F := F) p).Adm := fun p => (cfgs p).toPCfg_adm
/-- The pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The region as a segment -/

/-- ENTRY, the arrays' part: the core's unscoped buffers at the entry contents are the pipeline's arrays at the proof
    data's entry contents (the token matrix split into its half shares) and the unscoped rest. -/
theorem entry_split (c : Dev nD) :
    (StableHlo.held (c : Thread nD τ) (Pipeline.ucRefs τ sig) (W1 m ρ c) : sProp 𝕄)
      ⊢ iprop((dat (V1 m ρ) c).arrays ((dat (V1 m ρ) c).arrAt · 0) ∗ Pipeline.unscopedRest spec0 c (V1 m ρ c)) := by
  rw [← Pipeline.unscopedBufs_held c (W1 m ρ c), Pipeline.unscopedBufs_split₀ cfgs 0 winFacts₀0.arr_unscoped c (V1 m ρ c)]
  exact sep_mono (arrBufs_arrays (V1 m ρ) c _ (V1 m ρ c) (fun w => A_eq (V1 m ρ) c w)).1 .rfl

/-- EXIT, the arrays' part: the arrays at what the pipeline leaves (the two half shares joined) and the unscoped rest
    as entered are the core's unscoped buffers at the exit contents. -/
theorem exit_join (c : Dev nD) :
    iprop((dat (V1 m ρ) c).arrays ((dat (V1 m ρ) c).arrAt · cfg0.N) ∗ Pipeline.unscopedRest spec0 c (V1 m ρ c))
      ⊢ (StableHlo.held (c : Thread nD τ) (Pipeline.ucRefs τ sig) (W2 m ρ c) : sProp 𝕄) := by
  rw [← Pipeline.unscopedBufs_held c (W2 m ρ c), Pipeline.unscopedBufs_split₀ cfgs 0 winFacts₀0.arr_unscoped c (V2 m ρ c)]
  refine sep_mono (arrBufs_arrays (V1 m ρ) c _ (V2 m ρ c) (exit_arr m ρ c)).2 (Entails.of_eq ?_)
  unfold Pipeline.unscopedRest
  exact bigSep_congr fun b hb => by rw [exit_rest m ρ c b (Finset.mem_sdiff.mp hb).2]

set_option backward.isDefEq.respectTransparency.types false in
/-- The region over the thread state: entered from every unscoped buffer at `W1`, left at `W2`; the generator register
    into the invariant and out; nothing owed; no semaphore of the kernel's own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit_join m ρ c)
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's three segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has the result at the last reshape of what the pipeline leaves in its result array, and
    the four argument arrays as launched. -/
theorem run_main : θ_run defs (onTc (τ := τ) (main (F := F))) ⟨m, fun _ => 0, ρ⟩ (fun r => ∀ c : Dev nD,
      r.2.mem ((c.tc : Thread nD τ).loc main_v5)
          = shapeCast S4x4096x2048 ((dat (V1 m ρ) c).arrAt 5 cfg0.N) shapeCasts_S16384x2048_S4x4096x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show (iprop(StableHlo.held (c : Thread nD τ) (Pipeline.ucRefs τ sig) (W3 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v5 (by decide))).trans (W3_result m ρ c),
       (h c _ (mem_uc main_arg0 (by decide))).trans (W3_arg m ρ c main_arg0 (by decide) (by decide) (by decide) (by decide) (by decide) (by decide)),
       (h c _ (mem_uc main_arg1 (by decide))).trans (W3_arg m ρ c main_arg1 (by decide) (by decide) (by decide) (by decide) (by decide) (by decide)),
       (h c _ (mem_uc main_arg2 (by decide))).trans (W3_arg m ρ c main_arg2 (by decide) (by decide) (by decide) (by decide) (by decide) (by decide)),
       (h c _ (mem_uc main_arg3 (by decide))).trans (W3_arg m ρ c main_arg3 (by decide) (by decide) (by decide) (by decide) (by decide) (by decide))⟩)

/-- THE FRAME: the run, read for the arguments only. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.KernelIdeal.Fr

end
-- ==== Proof.KiPay.lean ====
/-
  The body's payload, read at one entry of the output block.

  With the two half blocks `x0`, `x1` of 1024 token rows, the gate row `x2`, the transposed down-projection `x3`
  (rows 0 … 1023 against the lower half, rows 1024 … 2047 against the upper half) and the transposed up-projection
  `x4`, entry (p, q) of the block the body stores is

      Σ_r ((Σ_d x0[p,d]·x3[d,r] + Σ_d x1[p,d]·x3[1024+d,r]) · (σ(Σ_d x0[p,d]·x2[0,d] + Σ_d x1[p,d]·x2[0,1024+d]) · 2)) · x4[r,q].
-/
import proofs.«135205_g4131758539051_cont_8to1_b_278_9_alg».proof.Proof.KiBody
import proofs.«135205_g4131758539051_cont_8to1_b_278_9_alg».proof.Proof.Flat
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pay

open Cert.KernelIdeal Cert.KernelIdeal.Gen Cert.KernelIdeal.Fr Cert.Spec
open Idealize.ShloMosaic Idealize.ShloMosaic.ValueIdx

/-! ## The loads

A load through a unit-stride rectangle reads the buffer at the rectangle's offset plus the local coordinate. -/

/-- The lower half of the down-projection: local row `d` is row `d`. -/
theorem ld_downLo (x3 : Vec Ideal S2048x64 .f32) (d : Fin 1024) (r : Fin 64) :
    View.ld x3 rDownLo (ix2 d r) = x3 (ix2 (lo d) r) := by
  refine congrArg x3 (funext fun a => Fin.ext ?_)
  match a with
  | ⟨0, _⟩ => show 0 + 1 * d.val = d.val; omega
  | ⟨1, _⟩ => show 0 + 1 * r.val = r.val; omega

/-- The upper half of the down-projection: local row `d` is row `1024 + d`. -/
theorem ld_downHi (x3 : Vec Ideal S2048x64 .f32) (d : Fin 1024) (r : Fin 64) :
    View.ld x3 rDownHi (ix2 d r) = x3 (ix2 (hi d) r) := by
  refine congrArg x3 (funext fun a => Fin.ext ?_)
  match a with
  | ⟨0, _⟩ => show 1024 + 1 * d.val = 1024 + d.val; omega
  | ⟨1, _⟩ => show 0 + 1 * r.val = r.val; omega

/-! ## The matrix products

Each product contracts the left operand's columns against the right operand's rows; read at an entry it is the
sum over the one contracted coordinate. -/

theorem lhs_down_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhs_down_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhs_down_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhs_down_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- A half block of token rows against a half of the down-projection, at (p, r): the sum over the 1024 columns. -/
theorem matmul_down_apply (a : FVec Ideal S1024x1024 .f32) (b : FVec Ideal S1024x64 .f32) (p : Fin 1024) (q : Fin 64) :
    matmul dot_S1024x1024_S1024x64_S1024x64_1_0_0_1_n_n none a b (constant S1024x64 .f32 0x00000000#32) (ix2 p q)
      = ∑ k : Fin 1024, a (ix2 p k) * b (ix2 k q) := by
  simp only [matmul]
  rw [Ideal.matmul_constant_zero_apply, ← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 p q) ((contrEquiv1 dot_S1024x1024_S1024x64_S1024x64_1_0_0_1_n_n 1024 rfl rfl).symm k) = ix2 p k := funext fun a => Fin.ext (by
    match a with
    | ⟨0, _⟩ => exact lhs_down_0 _ _
    | ⟨1, _⟩ => exact (lhs_down_1 _ _).trans hk)
  have er : dot_S1024x1024_S1024x64_S1024x64_1_0_0_1_n_n.rhsIdx (ix2 p q) ((contrEquiv1 dot_S1024x1024_S1024x64_S1024x64_1_0_0_1_n_n 1024 rfl rfl).symm k) = ix2 k q := funext fun a => Fin.ext (by
    match a with
    | ⟨0, _⟩ => exact (rhs_down_0 _ _).trans hk
    | ⟨1, _⟩ => exact rhs_down_1 _ _)
  rw [el, er]

theorem lhs_up_0 (i : S1024x2048.Idx) (q : dot_S1024x64_S64x2048_S1024x2048_1_0_0_1_n_n.contr.Idx) :
    (dot_S1024x64_S64x2048_S1024x2048_1_0_0_1_n_n.lhsIdx i q 0).val = (i 0).val := by
  unfold DotDims.lhsIdx
  rw [dif_neg (show ¬(0 : Fin S1024x64.rank) ∈ dot_S1024x64_S64x2048_S1024x2048_1_0_0_1_n_n.lhsBatch by decide), dif_pos (show (0 : Fin S1024x64.rank) ∈ dot_S1024x64_S64x2048_S1024x2048_1_0_0_1_n_n.lhsNonContracting by decide)]
  rfl
theorem lhs_up_1 (i : S1024x2048.Idx) (q : dot_S1024x64_S64x2048_S1024x2048_1_0_0_1_n_n.contr.Idx) :
    (dot_S1024x64_S64x2048_S1024x2048_1_0_0_1_n_n.lhsIdx i q 1).val = (q ⟨0, by decide⟩).val :=
  dot_S1024x64_S64x2048_S1024x2048_1_0_0_1_n_n.lhsIdx_val_of_single rfl i q
theorem rhs_up_0 (i : S1024x2048.Idx) (q : dot_S1024x64_S64x2048_S1024x2048_1_0_0_1_n_n.contr.Idx) :
    (dot_S1024x64_S64x2048_S1024x2048_1_0_0_1_n_n.rhsIdx i q 0).val = (q ⟨0, by decide⟩).val :=
  dot_S1024x64_S64x2048_S1024x2048_1_0_0_1_n_n.rhsIdx_val_of_single rfl i q
theorem rhs_up_1 (i : S1024x2048.Idx) (q : dot_S1024x64_S64x2048_S1024x2048_1_0_0_1_n_n.contr.Idx) :
    (dot_S1024x64_S64x2048_S1024x2048_1_0_0_1_n_n.rhsIdx i q 1).val = (i 1).val := by
  unfold DotDims.rhsIdx
  rw [dif_neg (show ¬(1 : Fin S64x2048.rank) ∈ dot_S1024x64_S64x2048_S1024x2048_1_0_0_1_n_n.rhsBatch by decide), dif_pos (show (1 : Fin S64x2048.rank) ∈ dot_S1024x64_S64x2048_S1024x2048_1_0_0_1_n_n.rhsNonContracting by decide)]
  rfl

/-- The gated intermediate against the up-projection, at (p, q): the sum over the rank. -/
theorem matmul_up_apply (a : FVec Ideal S1024x64 .f32) (b : FVec Ideal S64x2048 .f32) (p : Fin 1024) (q : Fin 2048) :
    matmul dot_S1024x64_S64x2048_S1024x2048_1_0_0_1_n_n none a b (constant S1024x2048 .f32 0x00000000#32) (ix2 p q)
      = ∑ k : Fin 64, a (ix2 p k) * b (ix2 k q) := by
  simp only [matmul]
  rw [Ideal.matmul_constant_zero_apply, ← Equiv.sum_comp (contrEquiv1 dot_S1024x64_S64x2048_S1024x2048_1_0_0_1_n_n 64 rfl rfl).symm]
  refine Finset.sum_congr rfl fun k _ => ?_
  have hk := contrEquiv1_symm_val dot_S1024x64_S64x2048_S1024x2048_1_0_0_1_n_n 64 rfl rfl k
  have el : dot_S1024x64_S64x2048_S1024x2048_1_0_0_1_n_n.lhsIdx (ix2 p q) ((contrEquiv1 dot_S1024x64_S64x2048_S1024x2048_1_0_0_1_n_n 64 rfl rfl).symm k) = ix2 p k := funext fun a => Fin.ext (by
    match a with
    | ⟨0, _⟩ => exact lhs_up_0 _ _
    | ⟨1, _⟩ => exact (lhs_up_1 _ _).trans hk)
  have er : dot_S1024x64_S64x2048_S1024x2048_1_0_0_1_n_n.rhsIdx (ix2 p q) ((contrEquiv1 dot_S1024x64_S64x2048_S1024x2048_1_0_0_1_n_n 64 rfl rfl).symm k) = ix2 k q := funext fun a => Fin.ext (by
    match a with
    | ⟨0, _⟩ => exact (rhs_up_0 _ _).trans hk
    | ⟨1, _⟩ => exact rhs_up_1 _ _)
  rw [el, er]

/-! ## The lane sums -/

/-- The sum over the columns of a 1024 × 1024 block, at row `p`. -/
theorem laneSum_apply (v : FVec Ideal S1024x1024 .f32) (hφ : FKind.Formats .f32)
    (hacc : (0x00000000#32 : BitVec 32) = 0x00000000#32) (p : Fin 1024) :
    multiReduction .add [1] S1024 v 0x00000000#32 reduces_S1024x1024_S1024 hφ hacc (ix1 p)
      = ∑ d : Fin 1024, v (ix2 p d) := by
  refine (Ideal.multiReduction_add_single v 0x00000000#32 reduces_S1024x1024_S1024 hφ hacc (ix1 p)).trans ?_
  refine Finset.sum_congr rfl fun d _ => congrArg v (funext fun a => Fin.ext ?_)
  match a with
  | ⟨0, _⟩ => rfl
  | ⟨1, _⟩ => rfl

/-! ## The layout steps -/

/-- A vector of 1024 entries viewed as one column: entry (p, 0) is entry `p`. -/
theorem col_apply (v : FVec Ideal S1024 .f32) (p : Fin 1024) :
    shapeCast S1024x1 v shapeCasts_S1024_S1024x1 (ix2 p (0 : Fin 1)) = v (ix1 p) := by
  refine shapeCast_apply v shapeCasts_S1024_S1024x1 (ix2 p (0 : Fin 1)) (ix1 p) ?_
  rw [Shape.rowMajor_val_one, Shape.rowMajor_val_two]
  show p.val = p.val * 1 + 0
  omega

/-- The lower half of the gate row: column `d` is column `d`. -/
theorem gateLo_apply (v : FVec Ideal S1x2048 .f32) (d : Fin 1024) :
    extractStridedSlice S1x1024 ![0, 0] v slices_S1x2048_o0_0_S1x1024 (ix2 (0 : Fin 1) d) = v (ix2 (0 : Fin 1) (lo d)) :=
  slice2_axis1_apply 0 v slices_S1x2048_o0_0_S1x1024 (0 : Fin 1) d (lo d) (Nat.zero_add _).symm

/-- The upper half of the gate row: column `d` is column `1024 + d`. -/
theorem gateHi_apply (v : FVec Ideal S1x2048 .f32) (d : Fin 1024) :
    extractStridedSlice S1x1024 ![0, 1024] v slices_S1x2048_o0_1024_S1x1024 (ix2 (0 : Fin 1) d) = v (ix2 (0 : Fin 1) (hi d)) :=
  slice2_axis1_apply 1024 v slices_S1x2048_o0_1024_S1x1024 (0 : Fin 1) d (hi d) rfl

/-- One row repeated over 1024 rows: entry (p, d) is the row's entry `d`. -/
theorem rowBcast_apply (v : FVec Ideal S1x1024 .f32) (p d : Fin 1024) :
    broadcastTo S1024x1024 v broadcasts_S1x1024_S1024x1024 (ix2 p d) = v (ix2 (0 : Fin 1) d) :=
  broadcastTo_1b_ab_apply v broadcasts_S1x1024_S1024x1024 p d

/-- One column repeated over 64 columns: entry (p, r) is the column's entry `p`. -/
theorem colBcast_apply (v : FVec Ideal S1024x1 .f32) (p : Fin 1024) (r : Fin 64) :
    broadcastTo S1024x64 v broadcasts_S1024x1_S1024x64 (ix2 p r) = v (ix2 p (0 : Fin 1)) := by
  refine broadcastTo_apply v broadcasts_S1024x1_S1024x64 (ix2 p r) (ix2 p (0 : Fin 1)) fun a => ?_
  match a with
  | ⟨0, _⟩ => show p.val = if (1024 : Nat) = 1 then 0 else p.val; rw [if_neg (by decide)]
  | ⟨1, _⟩ => show 0 = if (1 : Nat) = 1 then 0 else r.val; rw [if_pos rfl]

/-! ## The payload at an entry -/

/-- The gate score of row `p`: each half block times its half of the gate row, summed over the columns, the two
    halves added. -/
theorem score_apply (v1 v3 : FVec Ideal S1024x1024 .f32) (v5 : FVec Ideal S1x2048 .f32) (hφ : FKind.Formats .f32)
    (hacc : (0x00000000#32 : BitVec 32) = 0x00000000#32) (p : Fin 1024) :
    addf
        (shapeCast S1024x1 (multiReduction .add [1] S1024
          (mulf v1 (broadcastTo S1024x1024 (extractStridedSlice S1x1024 ![0, 0] v5 slices_S1x2048_o0_0_S1x1024) broadcasts_S1x1024_S1024x1024))
          0x00000000#32 reduces_S1024x1024_S1024 hφ hacc) shapeCasts_S1024_S1024x1)
        (shapeCast S1024x1 (multiReduction .add [1] S1024
          (mulf v3 (broadcastTo S1024x1024 (extractStridedSlice S1x1024 ![0, 1024] v5 slices_S1x2048_o0_1024_S1x1024) broadcasts_S1x1024_S1024x1024))
          0x00000000#32 reduces_S1024x1024_S1024 hφ hacc) shapeCasts_S1024_S1024x1)
        (ix2 p (0 : Fin 1))
      = (∑ d : Fin 1024, v1 (ix2 p d) * v5 (ix2 (0 : Fin 1) (lo d))) + (∑ d : Fin 1024, v3 (ix2 p d) * v5 (ix2 (0 : Fin 1) (hi d))) := by
  rw [addf_apply, col_apply, col_apply, laneSum_apply, laneSum_apply]
  refine congrArg₂ (· + ·) (Finset.sum_congr rfl fun d _ => ?_) (Finset.sum_congr rfl fun d _ => ?_)
  · rw [mulf_apply, rowBcast_apply, gateLo_apply]
  · rw [mulf_apply, rowBcast_apply, gateHi_apply]

/-- The gate factor of row `p`: the logistic function of the score, doubled. -/
theorem gate_apply (v16 : FVec Ideal S1024x1 .f32) (p : Fin 1024) :
    mulf (logistic v16) (broadcast S1024x1 (Scalar.ofBits (F := Ideal) .f32 0x40000000#32)) (ix2 p (0 : Fin 1))
      = Ideal.logistic (v16 (ix2 p (0 : Fin 1))) * two := rfl

/-- The payload at entry (p, q), over the six loaded values. -/
theorem pay_apply (v0 v2 : Vec Ideal S1024x1024 .f32) (v4 : Vec Ideal S1x2048 .f32) (v17 v20 : Vec Ideal S1024x64 .f32)
    (v29 : Vec Ideal S64x2048 .f32) (p : Fin 1024) (q : Fin 2048) :
    k0_pay1 (F := Ideal) v0 v2 v4 v17 v20 v29 (ix2 p q)
      = ∑ r : Fin 64,
          (((∑ d : Fin 1024, v0 (ix2 p d) * v17 (ix2 d r)) + (∑ d : Fin 1024, v2 (ix2 p d) * v20 (ix2 d r)))
            * (Ideal.logistic ((∑ d : Fin 1024, v0 (ix2 p d) * v4 (ix2 (0 : Fin 1) (lo d))) + (∑ d : Fin 1024, v2 (ix2 p d) * v4 (ix2 (0 : Fin 1) (hi d))))
                * two))
          * v29 (ix2 r q) := by
  unfold k0_pay1
  simp only [shapeCast_self]
  refine (matmul_up_apply _ _ p q).trans ?_
  refine Finset.sum_congr rfl fun r _ => ?_
  refine congrArg (· * v29 (ix2 r q)) ?_
  rw [mulf_apply, addf_apply, matmul_down_apply, matmul_down_apply, colBcast_apply, gate_apply, score_apply]

/-! ## The stored block -/

/-- The offsets of a whole-block access are zero. -/
theorem off_zero : (![0, 0] : Fin 2 → Nat) = fun _ => 0 := funext fun a => by
  match a with
  | ⟨0, _⟩ => rfl
  | ⟨1, _⟩ => rfl

/-- The stored block at entry (p, q), as sums over the half rows and the rank. -/
theorem outBlk_apply (x0 x1 : Vec Ideal S1024x1024 .f32) (x2 : Vec Ideal S1x2048 .f32) (x3 : Vec Ideal S2048x64 .f32)
    (x4 : Vec Ideal S64x2048 .f32) (p : Fin 1024) (q : Fin 2048) :
    outBlk (F := Ideal) x0 x1 x2 x3 x4 (ix2 p q)
      = ∑ r : Fin 64,
          (((∑ d : Fin 1024, x0 (ix2 p d) * x3 (ix2 (lo d) r)) + (∑ d : Fin 1024, x1 (ix2 p d) * x3 (ix2 (hi d) r)))
            * (Ideal.logistic ((∑ d : Fin 1024, x0 (ix2 p d) * x2 (ix2 0 (lo d))) + (∑ d : Fin 1024, x1 (ix2 p d) * x2 (ix2 0 (hi d))))
                * two))
          * x4 (ix2 r q) := by
  unfold outBlk
  rw [View.canon_unit_zero off_zero]
  simp only [View.ld_unit_zero (S := S1024x1024) off_zero, View.ld_unit_zero (S := S1x2048) off_zero,
    View.ld_unit_zero (S := S64x2048) off_zero]
  refine (pay_apply x0 x1 x2 (View.ld x3 rDownLo) (View.ld x3 rDownHi) x4 p q).trans ?_
  have hlo : ∀ (d : Fin 1024) (r : Fin 64), View.ld x3 rDownLo (ix2 d r) = x3 (ix2 (lo d) r) := ld_downLo x3
  have hhi : ∀ (d : Fin 1024) (r : Fin 64), View.ld x3 rDownHi (ix2 d r) = x3 (ix2 (hi d) r) := ld_downHi x3
  generalize View.ld x3 rDownLo = w17 at hlo ⊢
  generalize View.ld x3 rDownHi = w20 at hhi ⊢
  simp only [hlo, hhi]

end Cert.KernelIdeal.Pay

end
-- ==== Proof.KiValue.lean ====
/-
  What the kernel leaves in its result array: after the sixteen grid points the (16384 × 2048) array holds
  `Cert.Spec.flatOut` of the arrays the region was entered with.  Point `t` writes rows 1024·t … 1024·t + 1023;
  what it writes is the body's payload read index by index: two lane sums for the gate score, two matrix products
  for the down-projection, the logistic, the scaling, and the up-projection.
-/
import proofs.«135205_g4131758539051_cont_8to1_b_278_9_alg».proof.Proof.KiBody
import proofs.«135205_g4131758539051_cont_8to1_b_278_9_alg».proof.Proof.KiPay
import proofs.«135205_g4131758539051_cont_8to1_b_278_9_alg».proof.Proof.Flat
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx Idealize.SL.Sem
open Idealize.ShloMosaic.Pipeline (Dat Cfg Window)

section Blocks

/-- The windows' block indices at each of the sixteen grid points: the two token windows and the output
    window sit at block row `t` (the second token window one block to the right); the gate and the two
    projection matrices are read whole, at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 1)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

variable (V : (c : Dev nD) → (b : Ref sig .tc) → Buf (Elt Ideal) ((c : Thread nD τ).loc b))

/-- Window 0's block at point `t`: rows 1024·t …, columns 0 … 1023 of the token matrix. -/
theorem iblk0_apply (c : Dev nD) (t : Fin cfg0.N) (x : S1024x1024.Idx) (k : S16384x2048.Idx)
    (hk0 : (k 0).val = 1024 * t.val + (x 0).val) (hk1 : (k 1).val = (x 1).val) :
    (iblk V c 0 t : Vec Ideal S1024x1024 .f32) x = (V c main_v0 : S16384x2048.Idx → Elt Ideal .f32) k := by
  obtain ⟨⟨e0, e1⟩, -⟩ := idx_facts t
  unfold iblk
  rw [View.read_apply]
  show V c main_v0 _ = V c main_v0 _
  refine congrArg (V c main_v0) ?_
  funext a
  apply Fin.ext
  match a with
  | ⟨0, _⟩ => show win0_0.index t (0 : Fin 2) * 1024 + 1 * (x 0).val = (k 0).val; rw [e0, hk0]; omega
  | ⟨1, _⟩ => show win0_0.index t (1 : Fin 2) * 1024 + 1 * (x 1).val = (k 1).val; rw [e1, hk1]; omega

/-- Window 1's block at point `t`: the same rows, columns 1024 … 2047. -/
theorem iblk1_apply (c : Dev nD) (t : Fin cfg0.N) (x : S1024x1024.Idx) (k : S16384x2048.Idx)
    (hk0 : (k 0).val = 1024 * t.val + (x 0).val) (hk1 : (k 1).val = 1024 + (x 1).val) :
    (iblk V c 1 t : Vec Ideal S1024x1024 .f32) x = (V c main_v0 : S16384x2048.Idx → Elt Ideal .f32) k := by
  obtain ⟨-, ⟨e0, e1⟩, -⟩ := idx_facts t
  unfold iblk
  rw [View.read_apply]
  show V c main_v0 _ = V c main_v0 _
  refine congrArg (V c main_v0) ?_
  funext a
  apply Fin.ext
  match a with
  | ⟨0, _⟩ => show win0_1.index t (0 : Fin 2) * 1024 + 1 * (x 0).val = (k 0).val; rw [e0, hk0]; omega
  | ⟨1, _⟩ => show win0_1.index t (1 : Fin 2) * 1024 + 1 * (x 1).val = (k 1).val; rw [e1, hk1]; omega

/-- Window 2's block is the whole gate row, at every point. -/
theorem iblk2_eq (c : Dev nD) (t : Fin cfg0.N) :
    (iblk V c 2 t : Vec Ideal S1x2048 .f32) = (V c main_v3 : S1x2048.Idx → Elt Ideal .f32) := by
  obtain ⟨-, -, ⟨e0, e1⟩, -⟩ := idx_facts t
  funext x
  unfold iblk
  rw [View.read_apply]
  show V c main_v3 _ = V c main_v3 _
  refine congrArg (V c main_v3) ?_
  funext a
  apply Fin.ext
  match a with
  | ⟨0, _⟩ => show win0_2.index t (0 : Fin 2) * 1 + 1 * (x 0).val = (x 0).val; rw [e0]; omega
  | ⟨1, _⟩ => show win0_2.index t (1 : Fin 2) * 2048 + 1 * (x 1).val = (x 1).val; rw [e1]; omega

/-- Window 3's block is the whole transposed down-projection. -/
theorem iblk3_eq (c : Dev nD) (t : Fin cfg0.N) :
    (iblk V c 3 t : Vec Ideal S2048x64 .f32) = (V c main_v1 : S2048x64.Idx → Elt Ideal .f32) := by
  obtain ⟨-, -, -, ⟨e0, e1⟩, -⟩ := idx_facts t
  funext x
  unfold iblk
  rw [View.read_apply]
  show V c main_v1 _ = V c main_v1 _
  refine congrArg (V c main_v1) ?_
  funext a
  apply Fin.ext
  match a with
  | ⟨0, _⟩ => show win0_3.index t (0 : Fin 2) * 2048 + 1 * (x 0).val = (x 0).val; rw [e0]; omega
  | ⟨1, _⟩ => show win0_3.index t (1 : Fin 2) * 64 + 1 * (x 1).val = (x 1).val; rw [e1]; omega

/-- Window 4's block is the whole transposed up-projection. -/
theorem iblk4_eq (c : Dev nD) (t : Fin cfg0.N) :
    (iblk V c 4 t : Vec Ideal S64x2048 .f32) = (V c main_v2 : S64x2048.Idx → Elt Ideal .f32) := by
  obtain ⟨-, -, -, -, ⟨e0, e1⟩, -⟩ := idx_facts t
  funext x
  unfold iblk
  rw [View.read_apply]
  show V c main_v2 _ = V c main_v2 _
  refine congrArg (V c main_v2) ?_
  funext a
  apply Fin.ext
  match a with
  | ⟨0, _⟩ => show win0_4.index t (0 : Fin 2) * 64 + 1 * (x 0).val = (x 0).val; rw [e0]; omega
  | ⟨1, _⟩ => show win0_4.index t (1 : Fin 2) * 2048 + 1 * (x 1).val = (x 1).val; rw [e1]; omega

/-- The output block at one index, when the five input blocks are where the flattened arrays say: row `p` of the
    two token blocks is the lower and the upper half of row `T` of the token matrix, and the other three blocks
    are the gate row and the two projection matrices themselves.  Then entry (p, q) of the block is entry (T, q)
    of the kernel's flat arithmetic. -/
theorem outBlk_at (x0 x1 : Vec Ideal S1024x1024 .f32) (x2 : Vec Ideal S1x2048 .f32) (x3 : Vec Ideal S2048x64 .f32)
    (x4 : Vec Ideal S64x2048 .f32) (xf : SXf.Idx → EReal)
    (T : Fin 16384) (p : Fin 1024) (q : Fin 2048)
    (h0 : ∀ d : Fin 1024, x0 (ix2 p d) = xf (ix2 T (lo d)))
    (h1 : ∀ d : Fin 1024, x1 (ix2 p d) = xf (ix2 T (hi d))) :
    outBlk (F := Ideal) x0 x1 x2 x3 x4 (ix2 p q) = flatOut xf x2 x3 x4 (ix2 T q) := by
  rw [Pay.outBlk_apply]
  unfold flatOut fdown fscore
  refine Finset.sum_congr rfl (fun r _ => ?_)
  simp only [h0, h1]

/-- What point `t` writes back is block `t` of the kernel's flat arithmetic of the region-entry arrays. -/
theorem flushed_eq (c : Dev nD) (t : Fin cfg0.N) :
    (dat (F := Ideal) V c).flushed 5 t
      = ((cfg0.win 5).blk t).view.read (Elt Ideal) (flatOut (V c main_v0) (V c main_v3) (V c main_v1) (V c main_v2)) := by
  show (cfg0.win 5).cut (grid0.coords t) ((dat (F := Ideal) V c).after 5 t) = _
  rw [after_5]
  obtain ⟨-, -, -, -, -, ⟨e0, e1⟩⟩ := idx_facts t
  have hN : cfg0.N = 16 := N_0
  have ht : t.val < 16 := hN ▸ t.isLt
  funext j
  rw [View.read_apply]
  show outBlk (F := Ideal) (iblk V c 0 t) (iblk V c 1 t) (iblk V c 2 t) (iblk V c 3 t) (iblk V c 4 t) (j : S1024x2048.Idx) = _
  obtain ⟨p, q, rfl⟩ : ∃ (p : Fin 1024) (q : Fin 2048), (j : S1024x2048.Idx) = ix2 p q := ⟨j 0, j 1, eq_ix2 j⟩
  have hemb : (((cfg0.win 5).blk t).view.emb (ix2 p q) : S16384x2048.Idx)
      = ix2 (⟨1024 * t.val + p.val, by have := p.isLt; omega⟩ : Fin 16384) q := by
    funext a
    apply Fin.ext
    match a with
    | ⟨0, _⟩ => show win0_5.index t (0 : Fin 2) * 1024 + 1 * p.val = 1024 * t.val + p.val; rw [e0]; omega
    | ⟨1, _⟩ => show win0_5.index t (1 : Fin 2) * 2048 + 1 * q.val = q.val; rw [e1]; omega
  rw [hemb, iblk2_eq, iblk3_eq, iblk4_eq]
  exact outBlk_at _ _ _ _ _ (V c main_v0) _ p q
    (fun d => iblk0_apply V c t (ix2 p d) _ rfl rfl)
    (fun d => iblk1_apply V c t (ix2 p d) _ rfl rfl)

/-- An index of the result array is in point `t`'s block iff each coordinate is in the block's range on its axis. -/
theorem mem_blk (t : Fin cfg0.N) (i : S16384x2048.Idx) :
    i ∈ ((cfg0.win 5).blk t).view.set ↔ ∀ a : Fin 2, win0_5.index t a * S1024x2048.size a ≤ (i a).val
      ∧ (i a).val < win0_5.index t a * S1024x2048.size a + S1024x2048.size a := by
  show i ∈ ((View.whole main_v4).slice (win0_5.rect t)).set ↔ _
  rw [View.set_slice_whole, Rect.mem_set_unit]
  exact Iff.rfl

/-- Every index of the result array is in some point's block: row `j` is written by point `j / 1024`. -/
theorem cover (i : S16384x2048.Idx) :
    ∃ t : Fin cfg0.N, (cfg0.win 5).flush t = true ∧ i ∈ ((cfg0.win 5).blk t).view.set := by
  have hN : cfg0.N = 16 := N_0
  have hi0 : (i 0).val < 16384 := (i 0).isLt
  have hi1 : (i 1).val < 2048 := (i 1).isLt
  obtain ⟨t, ht⟩ : ∃ t : Fin cfg0.N, t.val = (i 0).val / 1024 := ⟨⟨(i 0).val / 1024, by rw [hN]; omega⟩, rfl⟩
  obtain ⟨-, -, -, -, -, ⟨e0, e1⟩⟩ := idx_facts t
  refine ⟨t, flush0_5 t, ?_⟩
  rw [mem_blk]
  intro a
  match a with
  | ⟨0, _⟩ =>
    show win0_5.index t (0 : Fin 2) * 1024 ≤ (i 0).val ∧ (i 0).val < win0_5.index t (0 : Fin 2) * 1024 + 1024
    rw [e0, ht]; omega
  | ⟨1, _⟩ =>
    show win0_5.index t (1 : Fin 2) * 2048 ≤ (i 1).val ∧ (i 1).val < win0_5.index t (1 : Fin 2) * 2048 + 2048
    rw [e1]; omega

end Blocks

/-- After the last grid point the result array holds the kernel's flat arithmetic of the region-entry arrays. -/
theorem arrAt_out (V : (c : Dev nD) → (b : Ref sig .tc) → Buf (Elt Ideal) ((c : Thread nD τ).loc b)) (c : Dev nD) :
    (dat (F := Ideal) V c).arrAt 5 cfg0.N
      = Cert.Spec.flatOut (V c main_v0) (V c main_v3) (V c main_v1) (V c main_v2) :=
  (dat (F := Ideal) V c).arrAt_eq_of_cover 5 (Cert.Spec.flatOut (V c main_v0) (V c main_v3) (V c main_v1) (V c main_v2))
    (fun t _ => flushed_eq V c t) cover

end Cert.KernelIdeal.Val

end
-- ==== Proof.KiGlue.lean ====
/-
  From the flattened arrays back to the tensors: the kernel's result on the flattened token matrix, the gate row
  and the transposed projections, reshaped to [4, 4096, 2048], is `Cert.Spec.kerOut` of the four argument arrays.
  Token (b, s) is row `4096 · b + s` of the flattened matrix.
-/
import proofs.«135205_g4131758539051_cont_8to1_b_278_9_alg».proof.Proof.Gen.KernelIdeal
import proofs.«135205_g4131758539051_cont_8to1_b_278_9_alg».proof.Proof.Flat
import Idealize.ShloMosaic.Lib.Pipeline.Value
import Idealize.ShloMosaic.Lib.ValueIdx
import Idealize.ShloMosaic.Lib.ValueLayout

noncomputable section

namespace Cert.KernelIdeal.Glue

open Cert.KernelIdeal Cert.KernelIdeal.Gen Idealize.ShloMosaic Idealize.ShloMosaic.ValueIdx

/-! ## The four layout operations before the kernel, read at explicit coordinates -/

/-- The token tensor flattened to a matrix: row `t = 4096 · b + s`, column `k` holds `x[b, s, k]`, both having
    row-major position `(4096 · b + s) · 2048 + k`. -/
theorem xf_apply (x : FVec Ideal S4x4096x2048 .f32) (b : Fin 4) (s : Fin 4096) (k : Fin 2048) (t : Fin 16384)
    (ht : t.val = 4096 * b.val + s.val) :
    shapeCast S16384x2048 x shapeCasts_S4x4096x2048_S16384x2048 (ix2 t k) = x (ix3 b s k) := by
  refine shapeCast_apply x shapeCasts_S4x4096x2048_S16384x2048 (ix2 t k) (ix3 b s k) ?_
  rewrite [Shape.rowMajor_val_three, Shape.rowMajor_val_two]
  show (b.val * 4096 + s.val) * 2048 + k.val = t.val * 2048 + k.val
  rw [ht]
  omega

/-- The gate column read as a row: entry `(0, k)` of the row is entry `(k, 0)` of the column, both at row-major
    position `k`. -/
theorem gt_apply (g : FVec Ideal S2048x1 .f32) (k : Fin 2048) :
    shapeCast S1x2048 g shapeCasts_S2048x1_S1x2048 (ix2 0 k) = g (ix2 k 0) := by
  refine shapeCast_apply g shapeCasts_S2048x1_S1x2048 (ix2 0 k) (ix2 k 0) ?_
  rewrite [Shape.rowMajor_val_two, Shape.rowMajor_val_two]
  show k.val * 1 + 0 = 0 * 2048 + k.val
  omega

/-- `W_down` transposed: entry `(k, r)` of the transpose is entry `(r, k)` of `W_down`. -/
theorem wdt_apply (wd : FVec Ideal S64x2048 .f32) (k : Fin 2048) (r : Fin 64) :
    transpose S2048x64 [1, 0] wd transposes_S64x2048_S2048x64_1_0 (ix2 k r) = wd (ix2 r k) := by
  refine transpose_apply [1, 0] wd transposes_S64x2048_S2048x64_1_0 (ix2 k r) (ix2 r k) (fun a => ?_)
  match a with
  | ⟨0, _⟩ => rfl
  | ⟨1, _⟩ => rfl

/-- `W_up` transposed: entry `(r, o)` of the transpose is entry `(o, r)` of `W_up`. -/
theorem wut_apply (wu : FVec Ideal S2048x64 .f32) (r : Fin 64) (o : Fin 2048) :
    transpose S64x2048 [1, 0] wu transposes_S2048x64_S64x2048_1_0 (ix2 r o) = wu (ix2 o r) := by
  refine transpose_apply [1, 0] wu transposes_S2048x64_S64x2048_1_0 (ix2 r o) (ix2 o r) (fun a => ?_)
  match a with
  | ⟨0, _⟩ => rfl
  | ⟨1, _⟩ => rfl

/-! ## The flat score and down-projection of row `4096 · b + s` are those of token (b, s) -/

/-- The gate score of row `t = 4096 · b + s` of the flattened matrix is the gate score of token (b, s): term by
    term, the flattened entry is the tensor's and the gate row's entry is the gate column's. -/
theorem fscore_eq (x : FVec Ideal S4x4096x2048 .f32) (g : FVec Ideal S2048x1 .f32) (b : Fin 4) (s : Fin 4096)
    (t : Fin 16384) (ht : t.val = 4096 * b.val + s.val) :
    Cert.Spec.fscore (shapeCast S16384x2048 x shapeCasts_S4x4096x2048_S16384x2048)
        (shapeCast S1x2048 g shapeCasts_S2048x1_S1x2048) t
      = Cert.Spec.kscore x g b s := by
  unfold Cert.Spec.fscore Cert.Spec.kscore
  congr 1
  · exact Finset.sum_congr rfl fun d _ => by rw [xf_apply x b s _ t ht, gt_apply]
  · exact Finset.sum_congr rfl fun d _ => by rw [xf_apply x b s _ t ht, gt_apply]

/-- The down-projection of row `t = 4096 · b + s` at rank index `r` is that of token (b, s): term by term, the
    flattened entry is the tensor's and the transposed `W_down` at `(d, r)` is `W_down` at `(r, d)`. -/
theorem fdown_eq (x : FVec Ideal S4x4096x2048 .f32) (wd : FVec Ideal S64x2048 .f32) (b : Fin 4) (s : Fin 4096)
    (t : Fin 16384) (ht : t.val = 4096 * b.val + s.val) (r : Fin 64) :
    Cert.Spec.fdown (shapeCast S16384x2048 x shapeCasts_S4x4096x2048_S16384x2048)
        (transpose S2048x64 [1, 0] wd transposes_S64x2048_S2048x64_1_0) t r
      = Cert.Spec.kdown x wd b s r := by
  unfold Cert.Spec.fdown Cert.Spec.kdown
  congr 1
  · exact Finset.sum_congr rfl fun d _ => by rw [xf_apply x b s _ t ht, wdt_apply]
  · exact Finset.sum_congr rfl fun d _ => by rw [xf_apply x b s _ t ht, wdt_apply]

/-- The host operations around the kernel (two reshapes and two transposes before it, one reshape after it) turn
    the kernel's flat arithmetic into `kerOut`. -/
theorem glue (x : FVec Ideal S4x4096x2048 .f32) (wd : FVec Ideal S64x2048 .f32) (wu : FVec Ideal S2048x64 .f32)
    (g : FVec Ideal S2048x1 .f32) :
    shapeCast S4x4096x2048
        (Cert.Spec.flatOut (shapeCast S16384x2048 x shapeCasts_S4x4096x2048_S16384x2048)
          (shapeCast S1x2048 g shapeCasts_S2048x1_S1x2048)
          (transpose S2048x64 [1, 0] wd transposes_S64x2048_S2048x64_1_0)
          (transpose S64x2048 [1, 0] wu transposes_S2048x64_S64x2048_1_0))
        shapeCasts_S16384x2048_S4x4096x2048
      = Cert.Spec.kerOut x wd wu g := by
  funext i
  obtain ⟨b, s, o, rfl⟩ : ∃ (b : Fin 4) (s : Fin 4096) (o : Fin 2048), i = ix3 b s o := ⟨i 0, i 1, i 2, eq_ix3 i⟩
  -- the row of the flattened matrix that holds token (b, s)
  have hb : b.val < 4 := b.isLt
  have hs : s.val < 4096 := s.isLt
  obtain ⟨t, ht⟩ : ∃ t : Fin 16384, t.val = 4096 * b.val + s.val := ⟨⟨4096 * b.val + s.val, by omega⟩, rfl⟩
  -- the reshape after the kernel reads the flat result at (t, o): the same row-major position
  rw [shapeCast_apply _ shapeCasts_S16384x2048_S4x4096x2048 (ix3 b s o) (ix2 t o)
    (by
      rewrite [Shape.rowMajor_val_two, Shape.rowMajor_val_three]
      show t.val * 2048 + o.val = (b.val * 4096 + s.val) * 2048 + o.val
      rw [ht]
      omega)]
  -- both sides are now sums over the rank index with the same shape
  show ∑ r : Fin 64,
      (Cert.Spec.fdown (shapeCast S16384x2048 x shapeCasts_S4x4096x2048_S16384x2048)
            (transpose S2048x64 [1, 0] wd transposes_S64x2048_S2048x64_1_0) t r
          * (Ideal.logistic (Cert.Spec.fscore (shapeCast S16384x2048 x shapeCasts_S4x4096x2048_S16384x2048)
              (shapeCast S1x2048 g shapeCasts_S2048x1_S1x2048) t) * Cert.Spec.two))
        * transpose S64x2048 [1, 0] wu transposes_S2048x64_S64x2048_1_0 (ix2 r o)
    = ∑ r : Fin 64,
      (Cert.Spec.kdown x wd b s r * (Ideal.logistic (Cert.Spec.kscore x g b s) * Cert.Spec.two)) * wu (ix2 o r)
  refine Finset.sum_congr rfl fun r _ => ?_
  rw [fdown_eq x wd b s t ht r, fscore_eq x g b s t ht, wut_apply]

end Cert.KernelIdeal.Glue

end
-- ==== Proof.KBody.lean ====
/-
  The kernel body at one grid point.

  The pipeline calls the body with six staging buffers: the lower and the upper half (1024 columns each) of a
  block of 1024 rows of the token matrix, the gate row, the transposed down-projection, the transposed
  up-projection, and the output block.  The body reads the first five, computes, and overwrites the whole
  output block with one store; what that block then holds is the store's payload as a function of the five
  input blocks (`outBlk`).  The proof data say so at every point, and say that each input buffer still holds
  its block when the body returns.  The token matrix is handed to the pipeline twice (two windows on one
  array), so the proof data hold it at two half shares.
-/
import proofs.«135205_g4131758539051_cont_8to1_b_278_9_alg».proof.Proof.Gen.Kernel.Launch
import proofs.«135205_g4131758539051_cont_8to1_b_278_9_alg».proof.Proof.Gen.Kernel.Skeleton
import proofs.«135205_g4131758539051_cont_8to1_b_278_9_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved, and the body left the block in place.  One statement per input window. -/
theorem before_in_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rHalf : Rect S1024x1024 := Rect.unit (s := S1024x1024) ![0, 0] S1024x1024.size inb_S1024x1024_S1024x1024_0_0
abbrev rGate : Rect S1x2048 := Rect.unit (s := S1x2048) ![0, 0] S1x2048.size inb_S1x2048_S1x2048_0_0
abbrev rDownLo : Rect S2048x64 := Rect.unit (s := S2048x64) ![0, 0] S1024x64.size inb_S2048x64_S1024x64_0_0
abbrev rDownHi : Rect S2048x64 := Rect.unit (s := S2048x64) ![1024, 0] S1024x64.size inb_S2048x64_S1024x64_1024_0
abbrev rUp : Rect S64x2048 := Rect.unit (s := S64x2048) ![0, 0] S64x2048.size inb_S64x2048_S64x2048_0_0
abbrev rOut : Rect S1024x2048 := Rect.unit (s := S1024x2048) ![0, 0] S1024x2048.size inb_S1024x2048_S1024x2048_0_0

/-! ## What the body leaves in the output window's buffer -/

/-- The output block after the body, from the five input blocks: its one store, which covers the block. -/
def outBlk (x0 x1 : Vec F S1024x1024 .f32) (x2 : Vec F S1x2048 .f32) (x3 : Vec F S2048x64 .f32) (x4 : Vec F S64x2048 .f32) :
    Vec F S1024x2048 .f32 :=
  View.canon [⟨rOut, k0_pay1 (View.ld x0 rHalf) (View.ld x1 rHalf) (View.ld x2 rGate) (View.ld x3 rDownLo) (View.ld x3 rDownHi) (View.ld x4 rUp)⟩]

/-- The store's rectangle is the whole block. -/
theorem cover_out (p0 : Vec F S1024x2048 .f32) (y : S1024x2048.Idx) :
    ∃ pc ∈ ([⟨rOut, p0⟩] : List (View.Piece (Elt F) S1024x2048 .f32)), y ∈ pc.1.set :=
  View.cover_of_tiled [⟨rOut, p0⟩] S1024x2048.size (by rfl) y

/-! ## The body's triple -/

set_option maxHeartbeats 4000000 in
/-- The body on whole staging memrefs, the inputs' at read contents `x0 … x4` and the output's at anything, runs to
    the continuation holding the inputs' as they were and the output's at `outBlk` of the inputs'. -/
theorem sound_kernel (c : Dev nD) (E : Set ℕ) (i : grid0.Coords)
    (arg1 : Memref sig .tc .vmem S1024x1024 .f32) (harg1 : arg1.IsWhole) (arg2 : Memref sig .tc .vmem S1024x1024 .f32) (harg2 : arg2.IsWhole)
    (arg3 : Memref sig .tc .vmem S1x2048 .f32) (harg3 : arg3.IsWhole) (arg4 : Memref sig .tc .vmem S2048x64 .f32) (harg4 : arg4.IsWhole)
    (arg5 : Memref sig .tc .vmem S64x2048 .f32) (harg5 : arg5.IsWhole) (arg6 : Memref sig .tc .vmem S1024x2048 .f32) (harg6 : arg6.IsWhole)
    (x0 x1 : Vec F S1024x1024 .f32) (x2 : Vec F S1x2048 .f32) (x3 : Vec F S2048x64 .f32) (x4 : Vec F S64x2048 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlk x0 x1 x2 x3 x4)) -∗ K ⟨⟩))
      ⊢ wp frame (wpE (defs₀ (F := F)) Variants.none c none) E (cc0__lambda_ i arg1 harg1 arg2 harg2 arg3 harg3 arg4 harg4 arg5 harg5 arg6 harg6) K := by
  simp only [cc0__lambda__eq_skeleton]; unfold cc0__lambda__skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The pipeline's proof data -/

/-- The proof data on core `c`: the arrays as the region finds them; after the body at point `t` each input's buffer
    at its block and the output's at `outBlk` of the input blocks; the invariant the scoped rest and the generator
    register, untouched; nothing owed; the token matrix, which two windows read, held at two half shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outBlk (iblk V c 0 t) (iblk V c 1 t) (iblk V c 2 t) (iblk V c 3 t) (iblk V c 4 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) :
    (dat V c).after 5 t = outBlk (iblk V c 0 t) (iblk V c 1 t) (iblk V c 2 t) (iblk V c 3 t) (iblk V c 4 t) := by dsimp only [dat]

theorem before_0 (c : Dev nD) (t : Fin cfg0.N) (d) : (dat V c).before 0 t d = iblk V c 0 t :=
  before_in_0_of V (dat V c) (A_eq V c 0) (after_0 V c) t d
theorem before_1 (c : Dev nD) (t : Fin cfg0.N) (d) : (dat V c).before 1 t d = iblk V c 1 t :=
  before_in_1_of V (dat V c) (A_eq V c 1) (after_1 V c) t d
theorem before_2 (c : Dev nD) (t : Fin cfg0.N) (d) : (dat V c).before 2 t d = iblk V c 2 t :=
  before_in_2_of V (dat V c) (A_eq V c 2) (after_2 V c) t d
theorem before_3 (c : Dev nD) (t : Fin cfg0.N) (d) : (dat V c).before 3 t d = iblk V c 3 t :=
  before_in_3_of V (dat V c) (A_eq V c 3) (after_3 V c) t d
theorem before_4 (c : Dev nD) (t : Fin cfg0.N) (d) : (dat V c).before 4 t d = iblk V c 4 t :=
  before_in_4_of V (dat V c) (A_eq V c 4) (after_4 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the inputs' memrefs hold their blocks, so `sound_kernel` applies; the invariant and the
    core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Fr

end
-- ==== Proof.KRun.lean ====
/-
  The launch: @main is two reshapes and two transposes, the kernel region, and one reshape.

  The region is entered holding every unscoped buffer at the contents the first four host operations leave.  The
  token matrix is read by two windows, so its buffer, held whole, is split into two half shares on the way in and
  joined again on the way out; every other array of the pipeline is held whole.  At the exit the result array
  holds what the sixteen write-backs leave, every other buffer what it held at the entry; the last reshape then
  runs over those.  Read against the final state, the program's result is that reshape of the result array and
  the four arguments are as launched.
-/
import proofs.«135205_g4131758539051_cont_8to1_b_278_9_alg».proof.Proof.KBody
import Idealize.ShloMosaic.Lib.StableHlo.Run

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pipeline's arrays, two of them one buffer -/

section Share

variable (V : (c : Dev nD) → (b : Ref sig .tc) → Buf (Elt F) ((c : Thread nD τ).loc b))

/-- The six windows' arrays are five buffers. -/
theorem img_arr : Finset.univ.image (Pipeline.arrRef spec0) = ({main_v0, main_v3, main_v1, main_v2, main_v4} : Finset (Ref sig .tc)) := by decide

/-- The proof data's arrays, each a whole buffer, at its share. -/
theorem arrays_eq' (c : Dev nD) (Fw : (w : Fin cfg0.W) → Buf (Elt F) ((cfg0.win w).arr.view.loc (c : Thread nD τ))) :
    ((dat V c).arrays Fw : sProp 𝕄)
      = bigSep Finset.univ fun w => ((((c : Thread nD τ).loc (Pipeline.arrRef spec0 w)) ↦{(dat V c).share w} Fw w : sProp 𝕄)) := by
  unfold Dat.arrays
  exact bigSep_congr fun w _ => by rw [(arr_whole0 w).set_eq_univ]

/-- The same, window by window: the token matrix at its two half shares, the rest whole. -/
theorem arrays_chain (c : Dev nD) (Fw : (w : Fin cfg0.W) → Buf (Elt F) ((cfg0.win w).arr.view.loc (c : Thread nD τ))) :
    ((dat V c).arrays Fw : sProp 𝕄)
      = iprop((((c : Thread nD τ).loc main_v0) ↦{fullShare.left} Fw 0) ∗ (((c : Thread nD τ).loc main_v0) ↦{fullShare.right} Fw 1)
          ∗ (((c : Thread nD τ).loc main_v3) ↦{fullShare} Fw 2) ∗ (((c : Thread nD τ).loc main_v1) ↦{fullShare} Fw 3)
          ∗ (((c : Thread nD τ).loc main_v2) ↦{fullShare} Fw 4) ∗ (((c : Thread nD τ).loc main_v4) ↦{fullShare} Fw 5)) := by
  rw [arrays_eq', bigSep_W0]
  rfl

/-- The five buffers behind the arrays, each whole. -/
theorem arrBufs_chain (c : Dev nD) (V' : (b : Ref sig .tc) → Buf (Elt F) ((c : Thread nD τ).loc b)) :
    (Pipeline.arrBufs spec0 c V' : sProp 𝕄)
      = iprop((((c : Thread nD τ).loc main_v0) ↦{fullShare} V' main_v0)
          ∗ (((c : Thread nD τ).loc main_v3) ↦{fullShare} V' main_v3) ∗ (((c : Thread nD τ).loc main_v1) ↦{fullShare} V' main_v1)
          ∗ (((c : Thread nD τ).loc main_v2) ↦{fullShare} V' main_v2) ∗ (((c : Thread nD τ).loc main_v4) ↦{fullShare} V' main_v4)) := by
  unfold Pipeline.arrBufs
  rw [img_arr, BI.bigSep_insert (by decide), BI.bigSep_insert (by decide), BI.bigSep_insert (by decide), BI.bigSep_insert (by decide), BI.bigSep_singleton]
  rfl

/-- The buffers behind the arrays, whole at `V'`, ARE the proof data's arrays at contents read off `V'`: the token
    matrix's full share is its two halves. -/
theorem arrBufs_arrays (c : Dev nD) (Fw : (w : Fin cfg0.W) → Buf (Elt F) ((cfg0.win w).arr.view.loc (c : Thread nD τ)))
    (V' : (b : Ref sig .tc) → Buf (Elt F) ((c : Thread nD τ).loc b)) (hF : ∀ w, Fw w = V' (Pipeline.arrRef spec0 w)) :
    (Pipeline.arrBufs spec0 c V' : sProp 𝕄) ⊣⊢ (dat V c).arrays Fw := by
  have h0 : Fw 0 = V' main_v0 := hF 0
  have h1 : Fw 1 = V' main_v0 := hF 1
  have h2 : Fw 2 = V' main_v3 := hF 2
  have h3 : Fw 3 = V' main_v1 := hF 3
  have h4 : Fw 4 = V' main_v2 := hF 4
  have h5 : Fw 5 = V' main_v4 := hF 5
  rw [arrBufs_chain, arrays_chain, h0, h1, h2, h3, h4, h5]
  refine ⟨?_, ?_⟩
  · iintro ⟨H0, H3, H1, H2, H4⟩
    ihave H0' := (pointsTo_share (PosShare.mem_left_op_right fullShare)).1 $$ H0
    icases H0' with ⟨Ha, Hb⟩
    isplitl [Ha]; · iexact Ha
    isplitl [Hb]; · iexact Hb
    isplitl [H3]; · iexact H3
    isplitl [H1]; · iexact H1
    isplitl [H2]; · iexact H2
    iexact H4
  · iintro ⟨Ha, Hb, H3, H1, H2, H4⟩
    isplitl [Ha Hb]
    · iapply (pointsTo_share (PosShare.mem_left_op_right fullShare)).2
      isplitl [Ha]; · iexact Ha
      iexact Hb
    isplitl [H3]; · iexact H3
    isplitl [H1]; · iexact H1
    isplitl [H2]; · iexact H2
    iexact H4

end Share

/-! ## The buffer contents at each segment boundary -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first four host operations (the region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the region's exit: the result array at what the write-backs leave, every other buffer as entered. -/
def W2 (c : Dev nD) : Valuation τ sig (Elt F) := fun b =>
  if h : Proc.devRef .tc main_v4 = b then
    cast (congrArg (fun b' : DevRef τ sig => b'.ty.Contents (Elt F)) h) ((dat (V1 m ρ) c).arrAt 5 cfg0.N)
  else W1 m ρ c b
theorem W2_out (c : Dev nD) : W2 m ρ c (Proc.devRef .tc main_v4) = (dat (V1 m ρ) c).arrAt 5 cfg0.N := by
  unfold W2; rw [dif_pos rfl]; rfl
theorem W2_of_ne (c : Dev nD) (b : Ref sig .tc) (hb : main_v4 ≠ b) :
    W2 m ρ c (Proc.devRef .tc b) = W1 m ρ c (Proc.devRef .tc b) := by
  unfold W2; rw [dif_neg]; intro e; exact hb (Proc.devRef_injective _ e)
/-- The same read at the TensorCore's references. -/
abbrev V2 : (c : Dev nD) → (b : Ref sig .tc) → Buf (Elt F) ((c : Thread nD τ).loc b) := fun c b => W2 m ρ c b
/-- After the last host operation. -/
abbrev W3 : Dev nD → Valuation τ sig (Elt F) := fun c => StableHlo.after hostOps1 (W2 m ρ c)

/-- At the exit each array of the pipeline holds what the pipeline leaves: an input as entered, the result array its
    write-backs. -/
theorem exit_arr (c : Dev nD) (w : Fin cfg0.W) : (dat (V1 m ρ) c).arrAt w cfg0.N = V2 m ρ c (Pipeline.arrRef spec0 w) :=
  match w with
  | ⟨0, _⟩ => ((dat (V1 m ρ) c).arrAt_in 0 rfl _).trans ((A_eq (V1 m ρ) c 0).trans (W2_of_ne m ρ c main_v0 (by decide)).symm)
  | ⟨1, _⟩ => ((dat (V1 m ρ) c).arrAt_in 1 rfl _).trans ((A_eq (V1 m ρ) c 1).trans (W2_of_ne m ρ c main_v0 (by decide)).symm)
  | ⟨2, _⟩ => ((dat (V1 m ρ) c).arrAt_in 2 rfl _).trans ((A_eq (V1 m ρ) c 2).trans (W2_of_ne m ρ c main_v3 (by decide)).symm)
  | ⟨3, _⟩ => ((dat (V1 m ρ) c).arrAt_in 3 rfl _).trans ((A_eq (V1 m ρ) c 3).trans (W2_of_ne m ρ c main_v1 (by decide)).symm)
  | ⟨4, _⟩ => ((dat (V1 m ρ) c).arrAt_in 4 rfl _).trans ((A_eq (V1 m ρ) c 4).trans (W2_of_ne m ρ c main_v2 (by decide)).symm)
  | ⟨5, _⟩ => (W2_out m ρ c).symm
/-- and every other buffer what it held at the entry. -/
theorem exit_rest (c : Dev nD) : ∀ b, b ∉ Finset.univ.image (Pipeline.arrRef spec0) → V2 m ρ c b = V1 m ρ c b :=
  fun b hb => W2_of_ne m ρ c b fun e => hb (Finset.mem_image.mpr ⟨5, Finset.mem_univ _, e⟩)

/-! ### What the run reads at the end -/

/-- No host operation writes an argument. -/
theorem not_written0 (c : Dev nD) (b : Ref sig .tc) (h0 : main_v0 ≠ b) (h1 : main_v1 ≠ b) (h2 : main_v2 ≠ b) (h3 : main_v3 ≠ b)
    (W : Valuation τ sig (Elt F)) : StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.reshape_writes, Finset.mem_singleton]
    exact ⟨StableHlo.devRef_ne_of_ne h0.symm, StableHlo.devRef_ne_of_ne h1.symm, StableHlo.devRef_ne_of_ne h2.symm, StableHlo.devRef_ne_of_ne h3.symm⟩))
theorem not_written1 (c : Dev nD) (b : Ref sig .tc) (h5 : main_v5 ≠ b)
    (W : Valuation τ sig (Elt F)) : StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.reshape_writes, Finset.mem_singleton]
    exact StableHlo.devRef_ne_of_ne h5.symm))

/-- An argument array holds at the end what it held at launch: nothing writes it. -/
theorem W3_arg (c : Dev nD) (b : Ref sig .tc) (h0 : main_v0 ≠ b) (h1 : main_v1 ≠ b) (h2 : main_v2 ≠ b) (h3 : main_v3 ≠ b)
    (h4 : main_v4 ≠ b) (h5 : main_v5 ≠ b) : W3 m ρ c (Proc.devRef .tc b) = m ((c : Thread nD τ).loc b) :=
  calc W3 m ρ c (Proc.devRef .tc b)
    _ = W2 m ρ c (Proc.devRef .tc b) := not_written1 c b h5 _
    _ = W1 m ρ c (Proc.devRef .tc b) := W2_of_ne m ρ c b h4
    _ = W0 m ρ c (Proc.devRef .tc b) := not_written0 c b h0 h1 h2 h3 _
    _ = m ((c : Thread nD τ).loc b) := rfl

/-- The program's result is the last reshape of the result array. -/
theorem W3_result (c : Dev nD) :
    W3 m ρ c (Proc.devRef .tc main_v5)
      = shapeCast S4x4096x2048 ((dat (V1 m ρ) c).arrAt 5 cfg0.N) shapeCasts_S16384x2048_S4x4096x2048 := by
  rw [← W2_out m ρ c]
  show StableHlo.after hostOps1 (W2 m ρ c) (Proc.devRef .tc main_v5) = _
  after_results
  rfl

/-- The arrays the region is entered with, as the host operations make them from the arguments. -/
theorem V1_main_v0 (c : Dev nD) :
    V1 m ρ c main_v0 = shapeCast S16384x2048 (m ((c : Thread nD τ).loc main_arg0)) shapeCasts_S4x4096x2048_S16384x2048 := by
  show StableHlo.after hostOps0 (W0 m ρ c) (Proc.devRef .tc main_v0) = _
  after_results
  rfl
theorem V1_main_v1 (c : Dev nD) :
    V1 m ρ c main_v1 = transpose S2048x64 [1, 0] (m ((c : Thread nD τ).loc main_arg1)) transposes_S64x2048_S2048x64_1_0 := by
  show StableHlo.after hostOps0 (W0 m ρ c) (Proc.devRef .tc main_v1) = _
  after_results
theorem V1_main_v2 (c : Dev nD) :
    V1 m ρ c main_v2 = transpose S64x2048 [1, 0] (m ((c : Thread nD τ).loc main_arg2)) transposes_S2048x64_S64x2048_1_0 := by
  show StableHlo.after hostOps0 (W0 m ρ c) (Proc.devRef .tc main_v2) = _
  after_results
theorem V1_main_v3 (c : Dev nD) :
    V1 m ρ c main_v3 = shapeCast S1x2048 (m ((c : Thread nD τ).loc main_arg3)) shapeCasts_S2048x1_S1x2048 := by
  show StableHlo.after hostOps0 (W0 m ρ c) (Proc.devRef .tc main_v3) = _
  after_results
  rfl

/-! ## The proof data family and the thread state -/

/-- The pipeline has no prefetched table. -/
abbrev adm : (p : Fin 1) → (pcfgs (F := F) p).Adm := fun p => (cfgs p).toPCfg_adm
/-- The pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The region as a segment -/

/-- ENTRY, the arrays' part: the core's unscoped buffers at the entry contents are the pipeline's arrays at the proof
    data's entry contents (the token matrix split into its half shares) and the unscoped rest. -/
theorem entry_split (c : Dev nD) :
    (StableHlo.held (c : Thread nD τ) (Pipeline.ucRefs τ sig) (W1 m ρ c) : sProp 𝕄)
      ⊢ iprop((dat (V1 m ρ) c).arrays ((dat (V1 m ρ) c).arrAt · 0) ∗ Pipeline.unscopedRest spec0 c (V1 m ρ c)) := by
  rw [← Pipeline.unscopedBufs_held c (W1 m ρ c), Pipeline.unscopedBufs_split₀ cfgs 0 winFacts₀0.arr_unscoped c (V1 m ρ c)]
  exact sep_mono (arrBufs_arrays (V1 m ρ) c _ (V1 m ρ c) (fun w => A_eq (V1 m ρ) c w)).1 .rfl

/-- EXIT, the arrays' part: the arrays at what the pipeline leaves (the two half shares joined) and the unscoped rest
    as entered are the core's unscoped buffers at the exit contents. -/
theorem exit_join (c : Dev nD) :
    iprop((dat (V1 m ρ) c).arrays ((dat (V1 m ρ) c).arrAt · cfg0.N) ∗ Pipeline.unscopedRest spec0 c (V1 m ρ c))
      ⊢ (StableHlo.held (c : Thread nD τ) (Pipeline.ucRefs τ sig) (W2 m ρ c) : sProp 𝕄) := by
  rw [← Pipeline.unscopedBufs_held c (W2 m ρ c), Pipeline.unscopedBufs_split₀ cfgs 0 winFacts₀0.arr_unscoped c (V2 m ρ c)]
  refine sep_mono (arrBufs_arrays (V1 m ρ) c _ (V2 m ρ c) (exit_arr m ρ c)).2 (Entails.of_eq ?_)
  unfold Pipeline.unscopedRest
  exact bigSep_congr fun b hb => by rw [exit_rest m ρ c b (Finset.mem_sdiff.mp hb).2]

set_option backward.isDefEq.respectTransparency.types false in
/-- The region over the thread state: entered from every unscoped buffer at `W1`, left at `W2`; the generator register
    into the invariant and out; nothing owed; no semaphore of the kernel's own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit_join m ρ c)
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's three segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has the result at the last reshape of what the pipeline leaves in its result array, and
    the four argument arrays as launched. -/
theorem run_main : θ_run defs (onTc (τ := τ) (main (F := F))) ⟨m, fun _ => 0, ρ⟩ (fun r => ∀ c : Dev nD,
      r.2.mem ((c.tc : Thread nD τ).loc main_v5)
          = shapeCast S4x4096x2048 ((dat (V1 m ρ) c).arrAt 5 cfg0.N) shapeCasts_S16384x2048_S4x4096x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show (iprop(StableHlo.held (c : Thread nD τ) (Pipeline.ucRefs τ sig) (W3 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v5 (by decide))).trans (W3_result m ρ c),
       (h c _ (mem_uc main_arg0 (by decide))).trans (W3_arg m ρ c main_arg0 (by decide) (by decide) (by decide) (by decide) (by decide) (by decide)),
       (h c _ (mem_uc main_arg1 (by decide))).trans (W3_arg m ρ c main_arg1 (by decide) (by decide) (by decide) (by decide) (by decide) (by decide)),
       (h c _ (mem_uc main_arg2 (by decide))).trans (W3_arg m ρ c main_arg2 (by decide) (by decide) (by decide) (by decide) (by decide) (by decide)),
       (h c _ (mem_uc main_arg3 (by decide))).trans (W3_arg m ρ c main_arg3 (by decide) (by decide) (by decide) (by decide) (by decide) (by decide))⟩)

/-- THE FRAME: the run, read for the arguments only. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.Kernel.Fr

end
-- ==== Proof.lean ====
/-
  The certificate: the kernel `out = ((x_lo · Wd_lo + x_hi · Wd_hi) · (σ(x · g) · 2)) · Wu` against the reference
  `out = ((x · σ(x · g)) · Wd · Wu) · 2`, over the extended reals.

  The three frames are runs: the kernel's (at the printed words and at the exact values) is the launch of one
  pipelined region between host reshapes and transposes; the reference's is its straight-line run.  The ideal pass
  rewrote nothing, so `preserves` is trivial.  For `algebraic`, the kernel's run ends with the result array at
  `kerOut` of the arguments (the region's write-backs cover the flattened array; the host operations around the
  region flatten, transpose and unflatten), the reference's at `refOut`; the precondition makes every entry real,
  and over the reals the two are one function by distributivity.
-/
import proofs.«135205_g4131758539051_cont_8to1_b_278_9_alg».proof.Defs
import proofs.«135205_g4131758539051_cont_8to1_b_278_9_alg».proof.Proof.Gen.Kernel
import proofs.«135205_g4131758539051_cont_8to1_b_278_9_alg».proof.Proof.Gen.KernelIdeal
import proofs.«135205_g4131758539051_cont_8to1_b_278_9_alg».proof.Proof.Gen.ReferenceIdeal
import proofs.«135205_g4131758539051_cont_8to1_b_278_9_alg».proof.Proof.Gen.Pre_finite_inputs
import proofs.«135205_g4131758539051_cont_8to1_b_278_9_alg».proof.Proof.Gen.ReferenceIdeal.Run
import proofs.«135205_g4131758539051_cont_8to1_b_278_9_alg».proof.Proof.Gen.ReferenceIdeal.Read
import proofs.«135205_g4131758539051_cont_8to1_b_278_9_alg».proof.Proof.Spec
import proofs.«135205_g4131758539051_cont_8to1_b_278_9_alg».proof.Proof.Flat
import proofs.«135205_g4131758539051_cont_8to1_b_278_9_alg».proof.Proof.Finite
import proofs.«135205_g4131758539051_cont_8to1_b_278_9_alg».proof.Proof.RefValue
import proofs.«135205_g4131758539051_cont_8to1_b_278_9_alg».proof.Proof.KiBody
import proofs.«135205_g4131758539051_cont_8to1_b_278_9_alg».proof.Proof.KiRun
import proofs.«135205_g4131758539051_cont_8to1_b_278_9_alg».proof.Proof.KiPay
import proofs.«135205_g4131758539051_cont_8to1_b_278_9_alg».proof.Proof.KiValue
import proofs.«135205_g4131758539051_cont_8to1_b_278_9_alg».proof.Proof.KiGlue
import proofs.«135205_g4131758539051_cont_8to1_b_278_9_alg».proof.Proof.KBody
import proofs.«135205_g4131758539051_cont_8to1_b_278_9_alg».proof.Proof.KRun
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Fr.frame m ρ

theorem frame_ki : Cert.frame_KernelIdeal (hKernelIdeal := Cert.KernelIdeal.Gen.facts) (hPre_finite_inputs := Cert.Pre_finite_inputs.Gen.facts) :=
  fun m ρ _ => Cert.KernelIdeal.Fr.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end at one function of the arguments: the kernel's at `kerOut`, the reference's at `refOut`, equal where
    every entry is real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.kerOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩)
      (Cert.KernelIdeal.Fr.run_main (F := Ideal) m ρ)
    rw [Cert.KernelIdeal.Val.arrAt_out, Cert.KernelIdeal.Fr.V1_main_v0, Cert.KernelIdeal.Fr.V1_main_v3,
      Cert.KernelIdeal.Fr.V1_main_v1, Cert.KernelIdeal.Fr.V1_main_v2]
    exact Cert.KernelIdeal.Glue.glue _ _ _ _
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v17_eq, Cert.ReferenceIdeal.RefValue.val_eq_refOut,
      (hagree c).1, (hagree c).2.1, (hagree c).2.2.1, (hagree c).2.2.2]
    obtain ⟨h0, h1, h2, h3⟩ := Cert.Finite.real_of_pre _ _ _ _ (hpre c)
    exact (Cert.Spec.kerOut_eq_refOut _ _ _ _ h0 h1 h2 h3).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
